-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128 .f32) (main_arg6 : FVec F S128x40 .f32) (main_arg7 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x40 .f32) (main_arg7 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x40 : Shape := ⟨2, ![50000, 40]⟩
abbrev S5000x40 : Shape := ⟨2, ![5000, 40]⟩
abbrev S850000x40 : Shape := ⟨2, ![850000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 107
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S50000x128, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x128, .f32⟩
  | .hbm, ⟨60, _⟩ => ⟨S850000x1, .f32⟩
  | .hbm, ⟨61, _⟩ => ⟨S850000x128, .f32⟩
  | .hbm, ⟨62, _⟩ => ⟨S850000x128, .f32⟩
  | .hbm, ⟨63, _⟩ => ⟨S_, .f32⟩
  | .hbm, ⟨64, _⟩ => ⟨S50000x128, .f32⟩
  | .hbm, ⟨65, _⟩ => ⟨S850000x1, .i32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x128, .f32⟩
  | .hbm, ⟨79, _⟩ => ⟨S850000x1, .f32⟩
  | .hbm, ⟨80, _⟩ => ⟨S850000x128, .f32⟩
  | .hbm, ⟨81, _⟩ => ⟨S850000x128, .f32⟩
  | .hbm, ⟨82, _⟩ => ⟨S_, .f32⟩
  | .hbm, ⟨83, _⟩ => ⟨S50000x128, .f32⟩
  | .hbm, ⟨84, _⟩ => ⟨S850000x1, .i32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S50000x40, .f32⟩
  | .hbm, ⟨89, _⟩ => ⟨S_, .i32⟩
  | .hbm, ⟨90, _⟩ => ⟨S850000, .i32⟩
  | .hbm, ⟨91, _⟩ => ⟨S850000, .i1⟩
  | .hbm, ⟨92, _⟩ => ⟨S_, .i32⟩
  | .hbm, ⟨93, _⟩ => ⟨S850000, .i32⟩
  | .hbm, ⟨94, _⟩ => ⟨S850000, .i32⟩
  | .hbm, ⟨95, _⟩ => ⟨S850000, .i32⟩
  | .hbm, ⟨96, _⟩ => ⟨S850000x1, .i32⟩
  | .hbm, ⟨97, _⟩ => ⟨S850000x40, .f32⟩
  | .hbm, ⟨98, _⟩ => ⟨S850000x1, .f32⟩
  | .hbm, ⟨99, _⟩ => ⟨S850000x40, .f32⟩
  | .hbm, ⟨100, _⟩ => ⟨S850000x40, .f32⟩
  | .hbm, ⟨101, _⟩ => ⟨S_, .f32⟩
  | .hbm, ⟨102, _⟩ => ⟨S50000x40, .f32⟩
  | .hbm, ⟨103, _⟩ => ⟨S850000x1, .i32⟩
  | .hbm, ⟨104, _⟩ => ⟨S50000x40, .f32⟩
  | .hbm, ⟨105, _⟩ => ⟨S1x40, .f32⟩
  | .hbm, ⟨106, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x40, .f32⟩
  | .local _ .vmem, ⟨23, _⟩ => ⟨S5000x40, .f32⟩
  | .local _ .vmem, ⟨24, _⟩ => ⟨S5000x40, .f32⟩
  | .local _ .vmem, ⟨25, _⟩ => ⟨S5000x40, .f32⟩
  | .local _ .vmem, ⟨26, _⟩ => ⟨S5000x40, .f32⟩
  | .local _ .vmem, ⟨27, _⟩ => ⟨S1x40, .f32⟩
  | .local _ .vmem, ⟨28, _⟩ => ⟨S5000x40, .f32⟩
  | .local _ .vmem, ⟨29, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_c_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x40 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x40_S5000x40_1_0_0_1_n_n_wf : DotDims.WF S5000x128 S128x40 S5000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x40.size a ≤ S128x40.size a
  hwx4_1 : ∀ i : grid4.Coords, EltTy.bits .f32 = 32 ∨ (Rect.block (s := S128x40) S128x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x40.size a ≤ S50000x40.size a
  hwx4_2 : ∀ i : grid4.Coords, EltTy.bits .f32 = 32 ∨ (Rect.block (s := S50000x40) S5000x40.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x40.size a ≤ S50000x40.size a
  hwx5_0 : ∀ i : grid5.Coords, EltTy.bits .f32 = 32 ∨ (Rect.block (s := S50000x40) S5000x40.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x40.size a ≤ S1x40.size a
  hwx5_1 : ∀ i : grid5.Coords, EltTy.bits .f32 = 32 ∨ (Rect.block (s := S1x40) S1x40.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x40.size a ≤ S50000x40.size a
  hwx5_2 : ∀ i : grid5.Coords, EltTy.bits .f32 = 32 ∨ (Rect.block (s := S50000x40) S5000x40.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v62) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S5000x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v76) S5000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v77) S1x40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v78) S5000x40.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x40 : Shape := ⟨2, ![50000, 40]⟩
abbrev S850000x40 : Shape := ⟨2, ![850000, 40]⟩
abbrev S1x40 : Shape := ⟨2, ![1, 40]⟩
abbrev S50000x1 : Shape := ⟨2, ![50000, 1]⟩

abbrev nBuf : Space → Nat
  | .hbm => 131
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x40, .f32⟩
  | 7 => ⟨S40, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S_, .f32⟩
  | 25 => ⟨S50000, .f32⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S50000x128, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x128, .f32⟩
  | 60 => ⟨S850000x1, .f32⟩
  | 61 => ⟨S850000x128, .f32⟩
  | 62 => ⟨S850000x128, .f32⟩
  | 63 => ⟨S_, .f32⟩
  | 64 => ⟨S50000x128, .f32⟩
  | 65 => ⟨S850000x1, .i32⟩
  | 66 => ⟨S50000x128, .f32⟩
  | 67 => ⟨S1x128, .f32⟩
  | 68 => ⟨S50000x128, .f32⟩
  | 69 => ⟨S50000x128, .f32⟩
  | 70 => ⟨S_, .f32⟩
  | 71 => ⟨S50000x128, .f32⟩
  | 72 => ⟨S50000x128, .f32⟩
  | 73 => ⟨S50000x128, .f32⟩
  | 74 => ⟨S_, .i32⟩
  | 75 => ⟨S850000, .i32⟩
  | 76 => ⟨S850000, .i1⟩
  | 77 => ⟨S_, .i32⟩
  | 78 => ⟨S850000, .i32⟩
  | 79 => ⟨S850000, .i32⟩
  | 80 => ⟨S850000, .i32⟩
  | 81 => ⟨S850000x1, .i32⟩
  | 82 => ⟨S850000x128, .f32⟩
  | 83 => ⟨S850000x1, .f32⟩
  | 84 => ⟨S850000x128, .f32⟩
  | 85 => ⟨S850000x128, .f32⟩
  | 86 => ⟨S_, .f32⟩
  | 87 => ⟨S50000x128, .f32⟩
  | 88 => ⟨S850000x1, .i32⟩
  | 89 => ⟨S50000x128, .f32⟩
  | 90 => ⟨S1x128, .f32⟩
  | 91 => ⟨S50000x128, .f32⟩
  | 92 => ⟨S50000x128, .f32⟩
  | 93 => ⟨S_, .f32⟩
  | 94 => ⟨S50000x128, .f32⟩
  | 95 => ⟨S50000x128, .f32⟩
  | 96 => ⟨S50000x40, .f32⟩
  | 97 => ⟨S_, .i32⟩
  | 98 => ⟨S850000, .i32⟩
  | 99 => ⟨S850000, .i1⟩
  | 100 => ⟨S_, .i32⟩
  | 101 => ⟨S850000, .i32⟩
  | 102 => ⟨S850000, .i32⟩
  | 103 => ⟨S850000, .i32⟩
  | 104 => ⟨S850000x1, .i32⟩
  | 105 => ⟨S850000x40, .f32⟩
  | 106 => ⟨S850000x1, .f32⟩
  | 107 => ⟨S850000x40, .f32⟩
  | 108 => ⟨S850000x40, .f32⟩
  | 109 => ⟨S_, .f32⟩
  | 110 => ⟨S50000x40, .f32⟩
  | 111 => ⟨S850000x1, .i32⟩
  | 112 => ⟨S50000x40, .f32⟩
  | 113 => ⟨S1x40, .f32⟩
  | 114 => ⟨S50000x40, .f32⟩
  | 115 => ⟨S50000x40, .f32⟩
  | 116 => ⟨S_, .f32⟩
  | 117 => ⟨S50000, .f32⟩
  | 118 => ⟨S_, .f32⟩
  | 119 => ⟨S50000, .f32⟩
  | 120 => ⟨S50000, .f32⟩
  | 121 => ⟨S50000x1, .f32⟩
  | 122 => ⟨S50000x40, .f32⟩
  | 123 => ⟨S50000x40, .f32⟩
  | 124 => ⟨S50000x40, .f32⟩
  | 125 => ⟨S_, .f32⟩
  | 126 => ⟨S50000, .f32⟩
  | 127 => ⟨S50000x1, .f32⟩
  | _ => ⟨S50000x128, .f32⟩

abbrev hbmTy0_1 (i : Nat) : BufTy := match i % 128 with
  | 0 => ⟨S50000x1, .f32⟩
  | 1 => ⟨S50000x40, .f32⟩
  | 2 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call1_cst : Ref sig .tc := ⟨.hbm, 70, rfl⟩
abbrev main_call1_v0 : Ref sig .tc := ⟨.hbm, 71, rfl⟩
abbrev main_v48 : Ref sig .tc := ⟨.hbm, 72, rfl⟩
abbrev main_v49 : Ref sig .tc := ⟨.hbm, 73, rfl⟩
abbrev main_c_10 : Ref sig .tc := ⟨.hbm, 74, rfl⟩
abbrev main_v50 : Ref sig .tc := ⟨.hbm, 75, rfl⟩
abbrev main_v51 : Ref sig .tc := ⟨.hbm, 76, rfl⟩
abbrev main_c_11 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_12 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_call2_cst : Ref sig .tc := ⟨.hbm, 93, rfl⟩
abbrev main_call2_v0 : Ref sig .tc := ⟨.hbm, 94, rfl⟩
abbrev main_v66 : Ref sig .tc := ⟨.hbm, 95, rfl⟩
abbrev main_v67 : Ref sig .tc := ⟨.hbm, 96, rfl⟩
abbrev main_c_13 : Ref sig .tc := ⟨.hbm, 97, rfl⟩
abbrev main_v68 : Ref sig .tc := ⟨.hbm, 98, rfl⟩
abbrev main_v69 : Ref sig .tc := ⟨.hbm, 99, rfl⟩
abbrev main_c_14 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_15 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_call3_cst : Ref sig .tc := ⟨.hbm, 116, rfl⟩
abbrev main_call3_v0 : Ref sig .tc := ⟨.hbm, 117, rfl⟩
abbrev main_call3_cst_0 : Ref sig .tc := ⟨.hbm, 118, rfl⟩
abbrev main_call3_v1 : Ref sig .tc := ⟨.hbm, 119, rfl⟩
abbrev main_call3_v2 : Ref sig .tc := ⟨.hbm, 120, rfl⟩
abbrev main_call3_v3 : Ref sig .tc := ⟨.hbm, 121, rfl⟩
abbrev main_call3_v4 : Ref sig .tc := ⟨.hbm, 122, rfl⟩
abbrev main_call3_v5 : Ref sig .tc := ⟨.hbm, 123, rfl⟩
abbrev main_call3_v6 : Ref sig .tc := ⟨.hbm, 124, rfl⟩
abbrev main_call3_cst_1 : Ref sig .tc := ⟨.hbm, 125, rfl⟩
abbrev main_call3_v7 : Ref sig .tc := ⟨.hbm, 126, rfl⟩
abbrev main_call3_v8 : Ref sig .tc := ⟨.hbm, 127, rfl⟩
abbrev main_call3_v9 : Ref sig .tc := ⟨.hbm, 128, rfl⟩
abbrev main_call3_v10 : Ref sig .tc := ⟨.hbm, 129, rfl⟩
abbrev main_v84 : Ref sig .tc := ⟨.hbm, 130, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x40_S50000x40_1_0_0_1_n_n_wf : DotDims.WF S50000x128 S128x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.Stages.lean ====
/-
  A three-layer graph convolution network on 50000 nodes, stage by stage, each stage a function of the arrays it reads.

  The edge list  E  (2 rows of 800000 node numbers) gives the message sources (row 0) and targets (row 1); every node
  also sends to itself, so both vectors are followed by the numbers 0 .. 49999 (`sources`, `targets`: 850000 entries).
  A node's degree  d  counts the messages it receives; a message from  s  to  t  carries the weight
  d(s)^(-1/2) · d(t)^(-1/2),  a node of degree 0 counting as weight 0 (`edgeWeight`).  One layer multiplies the node
  features by a weight matrix (`product128`, `product40`), sends every source's row, scaled by the message's weight, to
  the message's target and sums what arrives there (`aggregate128`, `aggregate40`), and adds a bias row; the first two
  layers end with the rectifier  max(·, 0)  (`biasRelu`), the last with the logarithm of the row-wise softmax,
  v − max v − log Σ exp (v − max v)  along each row (`biasLogSoftmax`).  `network` is the three layers in order.

  Every stage is spelt with the host operations of the reference program, so the reference's own stages are these by
  unfolding, and a program that computes some stage differently is compared with it one stage at a time.
-/
import proofs.«171591_j1683627180254_1_alg».proof.Proof.Gen.ReferenceIdeal

noncomputable section

namespace Cert.Gcn

open Cert.ReferenceIdeal Cert.ReferenceIdeal.Gen Idealize.ShloMosaic Idealize.ShloMosaic.TcCoe

variable {F : FTy → Type} [FloatOps F]

/-- An array of the given shape and element type. -/
abbrev Arr (F : FTy → Type) [FloatOps F] (s : Shape) (e : EltTy) : Type := (⟨s, e⟩ : BufTy).Contents (Elt F)

/-- The message sources: row 0 of the edge list, then every node once. -/
def sources (E : Arr F S2x800000 .i32) : Arr F S850000 .i32 :=
  concatenate S850000 0 [⟨S800000, (shapeCast _ (extractStridedSlice S1x800000 ![0, 0] E slices_S2x800000_S1x800000_0_0) shapeCasts_S1x800000_S800000)⟩, ⟨S50000, (iotaInDim S50000 32 0)⟩] concatenates_S800000_S50000_S850000_d0

/-- The message targets: row 1 of the edge list, then every node once. -/
def targets (E : Arr F S2x800000 .i32) : Arr F S850000 .i32 :=
  concatenate S850000 0 [⟨S800000, (shapeCast _ (extractStridedSlice S1x800000 ![1, 0] E slices_S2x800000_S1x800000_1_0) shapeCasts_S1x800000_S800000)⟩, ⟨S50000, (iotaInDim S50000 32 0)⟩] concatenates_S800000_S50000_S850000_d0

/-- A vector of node numbers as a one-column table. -/
def column (v : Arr F S850000 .i32) : Arr F S850000x1 .i32 :=
  broadcastInDim S850000x1 ![0] bcast_S850000_S850000x1_0 v

/-- A vector of node numbers as a one-column table of row numbers to read: a negative number counts from the end. -/
def wrapped (v : Arr F S850000 .i32) : Arr F S850000x1 .i32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- A node's degree: the number of messages it receives. -/
def degree (E : Arr F S2x800000 .i32) : Arr F S50000 .f32 :=
  Host.scatterAdd scatter_S50000_S850000x1_S850000_n_0_0_1
    (broadcastInDim S50000 ![] bcast_S_S50000 (constant S_ .f32 0x00000000#32))
    (column (targets E))
    (broadcastInDim S850000 ![] bcast_S_S850000 (constant S_ .f32 0x3F800000#32))

/-- degree^(-1/2), and 0 for a node of degree 0. -/
def invSqrtDegree (E : Arr F S2x800000 .i32) : Arr F S50000 .f32 :=
  select (cmpf .ogt (degree E) (broadcastInDim S50000 ![] bcast_S_S50000 (constant S_ .f32 0x00000000#32)))
    (Host.powf (degree E) (broadcastInDim S50000 ![] bcast_S_S50000 (constant S_ .f32 0xBF000000#32)))
    (broadcastInDim S50000 ![] bcast_S_S50000 (id (constant S_ .f32 0x00000000#32)))

/-- A message's weight: the product of its two end nodes' degree^(-1/2). -/
def edgeWeight (E : Arr F S2x800000 .i32) : Arr F S850000 .f32 :=
  mulf (Host.gather gather_S50000_S850000x1_S850000_n_0_n_n_0_1_1 (invSqrtDegree E) (wrapped (sources E)))
    (Host.gather gather_S50000_S850000x1_S850000_n_0_n_n_0_1_1 (invSqrtDegree E) (wrapped (targets E)))

/-- Node features times a 128 × 128 weight matrix. -/
def product128 (X : Arr F S50000x128 .f32) (W : Arr F S128x128 .f32) : Arr F S50000x128 .f32 :=
  Host.dotGeneral dot_S50000x128_S128x128_S50000x128_1_0_0_1_n_n none X W

/-- Node features times a 128 × 40 weight matrix. -/
def product40 (X : Arr F S50000x128 .f32) (W : Arr F S128x40 .f32) : Arr F S50000x40 .f32 :=
  Host.dotGeneral dot_S50000x128_S128x40_S50000x40_1_0_0_1_n_n none X W

/-- Every message's source row, scaled by the message's weight, summed at the message's target (128 features). -/
def aggregate128 (E : Arr F S2x800000 .i32) (H : Arr F S50000x128 .f32) : Arr F S50000x128 .f32 :=
  Host.scatterAdd scatter_S50000x128_S850000x1_S850000x128_1_0_0_1
    (broadcastInDim S50000x128 ![] bcast_S_S50000x128 (constant S_ .f32 0x00000000#32))
    (column (targets E))
    (mulf (Host.gather gather_S50000x128_S850000x1_S850000x128_1_0_n_n_0_1_1128 H (wrapped (sources E)))
      (broadcastInDim S850000x128 ![0, 1] bcast_S850000x1_S850000x128_0_1
        (broadcastInDim S850000x1 ![0] bcast_S850000_S850000x1_0 (edgeWeight E))))

/-- The same with 40 features. -/
def aggregate40 (E : Arr F S2x800000 .i32) (H : Arr F S50000x40 .f32) : Arr F S50000x40 .f32 :=
  Host.scatterAdd scatter_S50000x40_S850000x1_S850000x40_1_0_0_1
    (broadcastInDim S50000x40 ![] bcast_S_S50000x40 (constant S_ .f32 0x00000000#32))
    (column (targets E))
    (mulf (Host.gather gather_S50000x40_S850000x1_S850000x40_1_0_n_n_0_1_140 H (wrapped (sources E)))
      (broadcastInDim S850000x40 ![0, 1] bcast_S850000x1_S850000x40_0_1
        (broadcastInDim S850000x1 ![0] bcast_S850000_S850000x1_0 (edgeWeight E))))

/-- A bias row added to every node's 128 features, then the rectifier. -/
def biasRelu (A : Arr F S50000x128 .f32) (b : Arr F S128 .f32) : Arr F S50000x128 .f32 :=
  maximumf
    (addf A (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- A bias row added to every node's 40 features. -/
def biased40 (A : Arr F S50000x40 .f32) (b : Arr F S40 .f32) : Arr F S50000x40 .f32 :=
  addf A (broadcastInDim S50000x40 ![0, 1] bcast_S1x40_S50000x40_0_1 (broadcastInDim S1x40 ![1] bcast_S40_S1x40_1 b))

/-- Each node's largest feature. -/
def rowMax (v : Arr F S50000x40 .f32) : Arr F S50000 .f32 :=
  maximumf (broadcastInDim S50000 ![] bcast_S_S50000 (constant S_ .f32 0xFF800000#32))
    (Host.reduce FloatOps.maximumf v (constant S_ .f32 0xFF800000#32) reducesTo_S50000x40_S50000_d1 h_S_)

/-- One number per node repeated over the node's 40 features. -/
def spread (u : Arr F S50000 .f32) : Arr F S50000x40 .f32 :=
  broadcastInDim S50000x40 ![0, 1] bcast_S50000x1_S50000x40_0_1 (broadcastInDim S50000x1 ![0] bcast_S50000_S50000x1_0 u)

/-- Each feature less its node's largest. -/
def shifted (v : Arr F S50000x40 .f32) : Arr F S50000x40 .f32 := subf v (spread (rowMax v))

/-- The logarithm of the row-wise softmax. -/
def logSoftmax (v : Arr F S50000x40 .f32) : Arr F S50000x40 .f32 :=
  subf (shifted v)
    (broadcastInDim S50000x40 ![0, 1] bcast_S50000x1_S50000x40_0_1
      (Host.log (broadcastInDim S50000x1 ![0] bcast_S50000_S50000x1_0
        (Host.reduceAdd (Host.exp (shifted v)) (constant S_ .f32 0x00000000#32) reducesTo_S50000x40_S50000_d1 h_S_))))

/-- The last layer's ending: bias, then the logarithm of the row-wise softmax. -/
def biasLogSoftmax (A : Arr F S50000x40 .f32) (b : Arr F S40 .f32) : Arr F S50000x40 .f32 := logSoftmax (biased40 A b)

/-- The three layers. -/
def network (X : Arr F S50000x128 .f32) (E : Arr F S2x800000 .i32) (W1 : Arr F S128x128 .f32) (b1 : Arr F S128 .f32)
    (W2 : Arr F S128x128 .f32) (b2 : Arr F S128 .f32) (W3 : Arr F S128x40 .f32) (b3 : Arr F S40 .f32) : Arr F S50000x40 .f32 :=
  biasLogSoftmax (aggregate40 E (product40 (biasRelu (aggregate128 E (product128 (biasRelu (aggregate128 E (product128 X W1)) b1) W2)) b2) W3)) b3

end Cert.Gcn

end
-- ==== Proof.LibPlainOps.lean ====
/-
  An operation of an outlined function is a plain operation.

  The small functions a traced program outlines (where, round, clip, pad, …) name each buffer by a reference that
  carries the tensor type of the value it holds, and read and write the buffer's contents through a transport along the
  equation "the buffer's type is that type". When the carried type IS the reference's own type — which is what a call
  site builds, the equation being `rfl` — both transports are the identity, and the operation is the plain operation at
  the same buffers with the same function.

  Rewriting by these equations BEFORE the operations' results are composed keeps every value a plain term of the
  arguments. That matters next to a reduction over many elements: a transport left above such a term makes a later
  definitional comparison unfold the other side first, down to pointwise float comparisons, which evaluate the reduction.
  Here each side of each equation is a single operation, so `rfl` costs nothing.
-/
import Idealize.ShloMosaic.Lib.StableHlo

namespace Cert.PlainOps

open Idealize.ShloMosaic Idealize.ShloMosaic.StableHlo

variable {sig : RefSig} {τ : Topo} {Val : EltTy → Type}

/-- A one-operand operation of an outlined function, at references whose carried types are their own, is the plain
    one-operand operation. -/
theorem tunary_eq (a y : Ref sig .tc) (ha : a.ty = a.ty) (ha2 : a.space ≠ .host) (ha3 : a.isScoped = false)
    (hy : y.ty = y.ty) (hy2 : y.space ≠ .host) (hy3 : y.isScoped = false)
    (f : a.ty.Contents Val → y.ty.Contents Val) :
    (TRef.unary (τ := τ) (TRef.of a ha ha2 ha3) (TRef.of y hy hy2 hy3) f : HloOp τ sig Val)
      = StableHlo.unary a y f (TRef.of a ha ha2 ha3).dev (TRef.of y hy hy2 hy3).dev := rfl

/-- The same for a two-operand operation. -/
theorem tbinary_eq (a b y : Ref sig .tc) (ha : a.ty = a.ty) (ha2 : a.space ≠ .host) (ha3 : a.isScoped = false)
    (hb : b.ty = b.ty) (hb2 : b.space ≠ .host) (hb3 : b.isScoped = false)
    (hy : y.ty = y.ty) (hy2 : y.space ≠ .host) (hy3 : y.isScoped = false)
    (f : a.ty.Contents Val → b.ty.Contents Val → y.ty.Contents Val) :
    (TRef.binary (τ := τ) (TRef.of a ha ha2 ha3) (TRef.of b hb hb2 hb3) (TRef.of y hy hy2 hy3) f : HloOp τ sig Val)
      = StableHlo.binary a b y f (TRef.of a ha ha2 ha3).dev (TRef.of b hb hb2 hb3).dev (TRef.of y hy hy2 hy3).dev := rfl

/-- The same for a three-operand operation (a select: the condition first). -/
theorem tternary_eq (c a b y : Ref sig .tc) (hc : c.ty = c.ty) (hc2 : c.space ≠ .host) (hc3 : c.isScoped = false)
    (ha : a.ty = a.ty) (ha2 : a.space ≠ .host) (ha3 : a.isScoped = false)
    (hb : b.ty = b.ty) (hb2 : b.space ≠ .host) (hb3 : b.isScoped = false)
    (hy : y.ty = y.ty) (hy2 : y.space ≠ .host) (hy3 : y.isScoped = false)
    (f : c.ty.Contents Val → a.ty.Contents Val → b.ty.Contents Val → y.ty.Contents Val) :
    (TRef.ternary (τ := τ) (TRef.of c hc hc2 hc3) (TRef.of a ha ha2 ha3) (TRef.of b hb hb2 hb3) (TRef.of y hy hy2 hy3) f :
        HloOp τ sig Val)
      = StableHlo.ternary c a b y f (TRef.of c hc hc2 hc3).dev (TRef.of a ha ha2 ha3).dev (TRef.of b hb hb2 hb3).dev
          (TRef.of y hy hy2 hy3).dev := rfl

/-- The same for an operation with no operand (a constant). -/
theorem tnullary_eq (y : Ref sig .tc) (hy : y.ty = y.ty) (hy2 : y.space ≠ .host) (hy3 : y.isScoped = false)
    (v : y.ty.Contents Val) :
    (TRef.nullary (τ := τ) (TRef.of y hy hy2 hy3) v : HloOp τ sig Val)
      = StableHlo.nullary y v (TRef.of y hy hy2 hy3).dev := rfl

end Cert.PlainOps
-- ==== Proof.LibJoin2.lean ====
/-
  Two arrays joined along an axis, as a function of the two arrays.

  A join of several arrays takes them as ONE list of (shape, array) pairs, and the evidence that the shapes fit is
  stated over that list's shapes; so a rewrite cannot replace an array inside the list without moving the evidence's
  type. For the join of exactly TWO arrays (a border row or column put beside an array, as a reflect pad does four
  times) the evidence mentions the two shapes only: naming that join as a function `join2` of the two arrays lets a
  rewriting pass reach inside either array by ordinary congruence. `join2_eq` is the equation to rewrite with,
  by definition; rewrite the operations' functions with it BEFORE their results are composed.
-/
import Idealize.ShloMosaic.PureOps.ShapeOps

namespace Cert.Join2

open Idealize.ShloMosaic

/-- Two arrays joined along axis `a`. -/
def join2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- The join of a two-element list is `join2` of its two arrays. -/
theorem join2_eq {α : Type} (t : Shape) (a : Fin t.rank) (s₁ s₂ : Shape) (x : s₁.Idx → α) (y : s₂.Idx → α)
    (h : Shape.Concatenates [s₁, s₂] t a) :
    concatenate t a [⟨s₁, x⟩, ⟨s₂, y⟩] h = join2 t a s₁ s₂ h x y := rfl

end Cert.Join2
-- ==== Proof.Stretches.lean ====
/-
  The host operations of the kernel's program, stretch by stretch, read at the buffers that matter.

  Before the first Pallas region the program computes, from the edge list, the message sources and targets (each an
  edge-list row followed by the self loops) and the message weights; these three arrays are computed once and read by
  every layer. Between a layer's product region and its bias region it gathers every message's source row of the
  product, scales it by the message's weight and sums the rows at the message's target — `messages128` / `messages40`
  of the three arrays and the product — and lays the layer's bias out as a one-row array. A stretch writes only its own
  buffers (`firstWrites`, `betweenWrites`), so every other buffer reads as before it.
-/
import proofs.«171591_j1683627180254_1_alg».proof.Proof.Gen.KernelIdeal.Launch
import proofs.«171591_j1683627180254_1_alg».proof.Proof.Stages
import proofs.«171591_j1683627180254_1_alg».proof.Proof.LibPlainOps
import proofs.«171591_j1683627180254_1_alg».proof.Proof.LibJoin2
import Idealize.ShloMosaic.Lib.StableHlo.Run

set_option maxRecDepth 16384

noncomputable section

namespace Cert.Gcn

open Cert.ReferenceIdeal Cert.ReferenceIdeal.Gen Idealize.ShloMosaic Idealize.ShloMosaic.TcCoe

variable {F : FTy → Type} [FloatOps F]

/-- The aggregation along messages given by their sources `s`, targets `d` and weights `w` (128 features). -/
def messages128 (s d : Arr F S850000 .i32) (w : Arr F S850000 .f32) (H : Arr F S50000x128 .f32) : Arr F S50000x128 .f32 :=
  Host.scatterAdd scatter_S50000x128_S850000x1_S850000x128_1_0_0_1
    (broadcastInDim S50000x128 ![] bcast_S_S50000x128 (constant S_ .f32 0x00000000#32))
    (column d)
    (mulf (Host.gather gather_S50000x128_S850000x1_S850000x128_1_0_n_n_0_1_1128 H (wrapped s))
      (broadcastInDim S850000x128 ![0, 1] bcast_S850000x1_S850000x128_0_1
        (broadcastInDim S850000x1 ![0] bcast_S850000_S850000x1_0 w)))

/-- The same with 40 features. -/
def messages40 (s d : Arr F S850000 .i32) (w : Arr F S850000 .f32) (H : Arr F S50000x40 .f32) : Arr F S50000x40 .f32 :=
  Host.scatterAdd scatter_S50000x40_S850000x1_S850000x40_1_0_0_1
    (broadcastInDim S50000x40 ![] bcast_S_S50000x40 (constant S_ .f32 0x00000000#32))
    (column d)
    (mulf (Host.gather gather_S50000x40_S850000x1_S850000x40_1_0_n_n_0_1_140 H (wrapped s))
      (broadcastInDim S850000x40 ![0, 1] bcast_S850000x1_S850000x40_0_1
        (broadcastInDim S850000x1 ![0] bcast_S850000_S850000x1_0 w)))

/-- A layer's aggregation is the aggregation along the edge list's messages. -/
theorem aggregate128_eq (E : Arr F S2x800000 .i32) (H : Arr F S50000x128 .f32) :
    aggregate128 E H = messages128 (sources E) (targets E) (edgeWeight E) H := rfl

theorem aggregate40_eq (E : Arr F S2x800000 .i32) (H : Arr F S50000x40 .f32) :
    aggregate40 E H = messages40 (sources E) (targets E) (edgeWeight E) H := rfl

end Cert.Gcn

namespace Cert.KernelIdeal.Stretches

open Cert.KernelIdeal Cert.KernelIdeal.Gen Idealize.ShloMosaic Idealize.ShloMosaic.TcCoe Idealize.SL.Sem Idealize.ShloMosaic.StableHlo

variable {F : FTy → Type} [FloatOps F]

/-! ## From the launch to the first region -/

theorem first_sources (W : Valuation τ sig (Elt F)) :
    after hostOps0_2 (after hostOps0_1 (after hostOps0 W)) (Proc.devRef .tc main_v3) = Cert.Gcn.sources (W (Proc.devRef .tc main_arg1)) := by
  simp only [hostOps0_2, hostOps0_1, hostOps0, Cert.PlainOps.tunary_eq, Cert.PlainOps.tbinary_eq, Cert.PlainOps.tternary_eq,
    Cert.PlainOps.tnullary_eq, Cert.Join2.join2_eq]
  after_results_simp
  rfl

theorem first_targets (W : Valuation τ sig (Elt F)) :
    after hostOps0_2 (after hostOps0_1 (after hostOps0 W)) (Proc.devRef .tc main_v6) = Cert.Gcn.targets (W (Proc.devRef .tc main_arg1)) := by
  simp only [hostOps0_2, hostOps0_1, hostOps0, Cert.PlainOps.tunary_eq, Cert.PlainOps.tbinary_eq, Cert.PlainOps.tternary_eq,
    Cert.PlainOps.tnullary_eq, Cert.Join2.join2_eq]
  after_results_simp
  rfl

theorem first_weights (W : Valuation τ sig (Elt F)) :
    after hostOps0_2 (after hostOps0_1 (after hostOps0 W)) (Proc.devRef .tc main_v30) = Cert.Gcn.edgeWeight (W (Proc.devRef .tc main_arg1)) := by
  simp only [hostOps0_2, hostOps0_1, hostOps0, Cert.PlainOps.tunary_eq, Cert.PlainOps.tbinary_eq, Cert.PlainOps.tternary_eq,
    Cert.PlainOps.tnullary_eq, Cert.Join2.join2_eq]
  after_results_simp
  rfl

/-! ## Between the first layer's product and its bias -/

theorem second_messages (W : Valuation τ sig (Elt F)) :
    after hostOps1 W (Proc.devRef .tc main_v44)
      = Cert.Gcn.messages128 (W (Proc.devRef .tc main_v3)) (W (Proc.devRef .tc main_v6)) (W (Proc.devRef .tc main_v30)) (W (Proc.devRef .tc main_v31)) := by
  simp only [hostOps1, Cert.PlainOps.tunary_eq, Cert.PlainOps.tbinary_eq, Cert.PlainOps.tternary_eq,
    Cert.PlainOps.tnullary_eq, Cert.Join2.join2_eq]
  after_results_simp
  rfl

theorem second_bias (W : Valuation τ sig (Elt F)) :
    after hostOps1 W (Proc.devRef .tc main_v45) = shapeCast S1x128 (W (Proc.devRef .tc main_arg3)) shapeCasts_S128_S1x128 := by
  simp only [hostOps1, Cert.PlainOps.tunary_eq, Cert.PlainOps.tbinary_eq, Cert.PlainOps.tternary_eq,
    Cert.PlainOps.tnullary_eq, Cert.Join2.join2_eq]
  after_results_simp
  rfl

/-! ## Between the second layer's product and its bias -/

theorem third_messages (W : Valuation τ sig (Elt F)) :
    after hostOps3 W (Proc.devRef .tc main_v60)
      = Cert.Gcn.messages128 (W (Proc.devRef .tc main_v3)) (W (Proc.devRef .tc main_v6)) (W (Proc.devRef .tc main_v30)) (W (Proc.devRef .tc main_v47)) := by
  simp only [hostOps3, Cert.PlainOps.tunary_eq, Cert.PlainOps.tbinary_eq, Cert.PlainOps.tternary_eq,
    Cert.PlainOps.tnullary_eq, Cert.Join2.join2_eq]
  after_results_simp
  rfl

theorem third_bias (W : Valuation τ sig (Elt F)) :
    after hostOps3 W (Proc.devRef .tc main_v61) = shapeCast S1x128 (W (Proc.devRef .tc main_arg5)) shapeCasts_S128_S1x128 := by
  simp only [hostOps3, Cert.PlainOps.tunary_eq, Cert.PlainOps.tbinary_eq, Cert.PlainOps.tternary_eq,
    Cert.PlainOps.tnullary_eq, Cert.Join2.join2_eq]
  after_results_simp
  rfl

/-! ## Between the third layer's product and its bias -/

theorem fourth_messages (W : Valuation τ sig (Elt F)) :
    after hostOps5 W (Proc.devRef .tc main_v76)
      = Cert.Gcn.messages40 (W (Proc.devRef .tc main_v3)) (W (Proc.devRef .tc main_v6)) (W (Proc.devRef .tc main_v30)) (W (Proc.devRef .tc main_v63)) := by
  simp only [hostOps5, Cert.PlainOps.tunary_eq, Cert.PlainOps.tbinary_eq, Cert.PlainOps.tternary_eq,
    Cert.PlainOps.tnullary_eq, Cert.Join2.join2_eq]
  after_results_simp
  rfl

theorem fourth_bias (W : Valuation τ sig (Elt F)) :
    after hostOps5 W (Proc.devRef .tc main_v77) = shapeCast S1x40 (W (Proc.devRef .tc main_arg7)) shapeCasts_S40_S1x40 := by
  simp only [hostOps5, Cert.PlainOps.tunary_eq, Cert.PlainOps.tbinary_eq, Cert.PlainOps.tternary_eq,
    Cert.PlainOps.tnullary_eq, Cert.Join2.join2_eq]
  after_results_simp
  rfl

/-! ## A stretch writes only its own buffers -/

/-- The buffers the operations before the first region write: the message sources, targets and weights and what they
    are computed from. -/
abbrev firstWrites : List (Ref sig .tc) :=
  [main_v0, main_v1, main_v2, main_v3, main_v4, main_v5, main_v6, main_cst, main_v7, main_cst_0, main_v8, main_v9, main_v10, main_cst_1, main_v11, main_v12, main_cst_2, main_v13, main_v14, main_cst_3, main_call0_v0, main_call0_v1, main_v15, main_c, main_v16, main_v17, main_c_4, main_v18, main_v19, main_v20, main_v21, main_v22, main_c_5, main_v23, main_v24, main_c_6, main_v25, main_v26, main_v27, main_v28, main_v29, main_v30]

/-- The buffers the three stretches between a product region and a bias region write. -/
abbrev betweenWrites : List (Ref sig .tc) :=
  [main_c_7, main_v32, main_v33, main_c_8, main_v34, main_v35, main_v36, main_v37, main_v38, main_v39, main_v40, main_v41, main_cst_9, main_v42, main_v43, main_v44, main_v45, main_c_10, main_v48, main_v49, main_c_11, main_v50, main_v51, main_v52, main_v53, main_v54, main_v55, main_v56, main_v57, main_cst_12, main_v58, main_v59, main_v60, main_v61, main_c_13, main_v64, main_v65, main_c_14, main_v66, main_v67, main_v68, main_v69, main_v70, main_v71, main_v72, main_v73, main_cst_15, main_v74, main_v75, main_v76, main_v77]

theorem first_writes0 : (hostOps0 : List (HloOp τ sig (Elt F))).Forall fun op => op.writes ⊆ (firstWrites.map (Proc.devRef (τ := τ) .tc)).toFinset := by
  simp only [hostOps0, Cert.PlainOps.tunary_eq, Cert.PlainOps.tternary_eq, List.Forall, StableHlo.nullary_writes, StableHlo.unary_writes,
    StableHlo.binary_writes, StableHlo.ternary_writes, StableHlo.reshape_writes, Finset.singleton_subset_iff, List.mem_toFinset]
  repeat' apply And.intro
  all_goals exact List.mem_map_of_mem (by decide)
theorem first_writes1 : (hostOps0_1 : List (HloOp τ sig (Elt F))).Forall fun op => op.writes ⊆ (firstWrites.map (Proc.devRef (τ := τ) .tc)).toFinset := by
  simp only [hostOps0_1, Cert.PlainOps.tunary_eq, Cert.PlainOps.tternary_eq, List.Forall, StableHlo.nullary_writes, StableHlo.unary_writes,
    StableHlo.binary_writes, StableHlo.ternary_writes, StableHlo.reshape_writes, Finset.singleton_subset_iff, List.mem_toFinset]
  repeat' apply And.intro
  all_goals exact List.mem_map_of_mem (by decide)
theorem first_writes2 : (hostOps0_2 : List (HloOp τ sig (Elt F))).Forall fun op => op.writes ⊆ (firstWrites.map (Proc.devRef (τ := τ) .tc)).toFinset := by
  simp only [hostOps0_2, Cert.PlainOps.tunary_eq, Cert.PlainOps.tternary_eq, List.Forall, StableHlo.nullary_writes, StableHlo.unary_writes,
    StableHlo.binary_writes, StableHlo.ternary_writes, StableHlo.reshape_writes, Finset.singleton_subset_iff, List.mem_toFinset]
  repeat' apply And.intro
  all_goals exact List.mem_map_of_mem (by decide)
theorem second_writes : (hostOps1 : List (HloOp τ sig (Elt F))).Forall fun op => op.writes ⊆ (betweenWrites.map (Proc.devRef (τ := τ) .tc)).toFinset := by
  simp only [hostOps1, Cert.PlainOps.tunary_eq, Cert.PlainOps.tternary_eq, List.Forall, StableHlo.nullary_writes, StableHlo.unary_writes,
    StableHlo.binary_writes, StableHlo.ternary_writes, StableHlo.reshape_writes, Finset.singleton_subset_iff, List.mem_toFinset]
  repeat' apply And.intro
  all_goals exact List.mem_map_of_mem (by decide)
theorem third_writes : (hostOps3 : List (HloOp τ sig (Elt F))).Forall fun op => op.writes ⊆ (betweenWrites.map (Proc.devRef (τ := τ) .tc)).toFinset := by
  simp only [hostOps3, Cert.PlainOps.tunary_eq, Cert.PlainOps.tternary_eq, List.Forall, StableHlo.nullary_writes, StableHlo.unary_writes,
    StableHlo.binary_writes, StableHlo.ternary_writes, StableHlo.reshape_writes, Finset.singleton_subset_iff, List.mem_toFinset]
  repeat' apply And.intro
  all_goals exact List.mem_map_of_mem (by decide)

/-- A buffer the operations before the first region do not write reads, at the first region's entry, as launched. -/
theorem first_keep (W : Valuation τ sig (Elt F)) (b : Ref sig .tc) (h : b ∉ firstWrites) :
    after hostOps0_2 (after hostOps0_1 (after hostOps0 W)) (Proc.devRef .tc b) = W (Proc.devRef .tc b) :=
  (after_of_writes_sub hostOps0_2 _ first_writes2 h).trans
    ((after_of_writes_sub hostOps0_1 _ first_writes1 h).trans (after_of_writes_sub hostOps0 _ first_writes0 h))

/-- A buffer the first layer's stretch does not write reads after it as before it. -/
theorem second_keep (W : Valuation τ sig (Elt F)) (b : Ref sig .tc) (h : b ∉ betweenWrites) :
    after hostOps1 W (Proc.devRef .tc b) = W (Proc.devRef .tc b) := after_of_writes_sub hostOps1 _ second_writes h

/-- A buffer the second layer's stretch does not write reads after it as before it. -/
theorem third_keep (W : Valuation τ sig (Elt F)) (b : Ref sig .tc) (h : b ∉ betweenWrites) :
    after hostOps3 W (Proc.devRef .tc b) = W (Proc.devRef .tc b) := after_of_writes_sub hostOps3 _ third_writes h

end Cert.KernelIdeal.Stretches

end
-- ==== Proof.LibDense.lean ====
/-
  One dense layer of a multilayer perceptron, read one row at a time over the extended reals.

  A layer maps a row  v  of K numbers to the row  y_c = (Σ_k v_k · W_{k,c}) + b_c  of C numbers (`affine`), optionally
  followed by the rectifier  max(·, 0)  (`relu`). A product of an [R, K] array with a [K, C] array whose dimension
  numbers contract the left operand's axis 1 with the right operand's axis 0 (no batch axes) is, at the entry (r, c),
  the sum over k of  lhs(r, k) · rhs(k, c) : this holds for the matrix unit's product into a zero accumulator and for the
  host's general product alike (`matmul_zero_plain_apply`, `dotGeneral_plain_apply`), because both are the same sum over
  the one-axis contraction index, re-indexed here by its one coordinate (`contr_sum`). So a whole layer as either
  program spells it — the product, the bias row added to every row, the maximum with zero — is `relu (affine W b row)`
  at every entry (`kernel_affine_apply` then `kernel_relu_apply`; `host_affine_apply` then `host_relu_apply`), whatever the number of rows: a layer acts on each row by
  itself.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- The affine map of one row:  y_c = (Σ_k v_k · W_{k,c}) + b_c . -/
def affine {K C : ℕ} (W : FVec Ideal ⟨2, ![K, C]⟩ .f32) (b : FVec Ideal ⟨1, ![C]⟩ .f32) (v : Fin K → EReal) :
    Fin C → EReal :=
  fun c => (∑ k : Fin K, v k * W (ix2 k c)) + b (ix1 c)

/-- The rectifier on a row:  max(y_c, 0) . -/
def relu {C : ℕ} (v : Fin C → EReal) : Fin C → EReal := fun c => max (v c) 0

/-- A coordinate of an index does not depend on how its axis number is written. -/
private theorem idx_val_congr {s : Shape} (j : s.Idx) (p q : Nat) (hp : p < s.rank) (hq : q < s.rank) (h : p = q) :
    (j ⟨p, hp⟩).val = (j ⟨q, hq⟩).val := by subst h; rfl

/-- With no batch axes and the left operand's axis 0 its only free axis, the left index's row is the result's row. -/
private theorem lhsIdx_row {R K C : ℕ} (d : DotDims ⟨2, ![R, K]⟩ ⟨2, ![K, C]⟩ ⟨2, ![R, C]⟩)
    (h3 : d.lhsNonContracting = [0]) (h5 : d.lhsBatch = [])
    (j : (⟨2, ![R, C]⟩ : Shape).Idx) (k : d.contr.Idx) : (d.lhsIdx j k 0).val = (j 0).val := by
  have hb : (0 : Fin 2) ∉ d.lhsBatch := by rw [h5]; exact List.not_mem_nil
  have hn : (0 : Fin 2) ∈ d.lhsNonContracting := by rw [h3]; exact List.mem_singleton.mpr rfl
  unfold DotDims.lhsIdx
  rw [dif_neg hb, dif_pos hn]
  simp only [Fin.val_cast]
  exact idx_val_congr j _ _ _ _ (by simp [h3, h5])

/-- With no batch axes, one free axis on the left and the right operand's axis 1 its only free axis, the right index's
    column is the result's column. -/
private theorem rhsIdx_col {R K C : ℕ} (d : DotDims ⟨2, ![R, K]⟩ ⟨2, ![K, C]⟩ ⟨2, ![R, C]⟩)
    (h3 : d.lhsNonContracting = [0]) (h4 : d.rhsNonContracting = [1]) (h5 : d.lhsBatch = []) (h6 : d.rhsBatch = [])
    (j : (⟨2, ![R, C]⟩ : Shape).Idx) (k : d.contr.Idx) : (d.rhsIdx j k 1).val = (j 1).val := by
  have hb : (1 : Fin 2) ∉ d.rhsBatch := by rw [h6]; exact List.not_mem_nil
  have hn : (1 : Fin 2) ∈ d.rhsNonContracting := by rw [h4]; exact List.mem_singleton.mpr rfl
  unfold DotDims.rhsIdx
  rw [dif_neg hb, dif_pos hn]
  simp only [Fin.val_cast]
  exact idx_val_congr j _ _ _ _ (by simp [h3, h4, h5])

/-- The sum over a one-axis contraction index of a plain [R,K] × [K,C] product, as the sum over k of
    lhs(r, k) · rhs(k, c). -/
theorem contr_sum {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (lhs : (⟨2, ![R, K]⟩ : Shape).Idx → EReal) (rhs : (⟨2, ![K, C]⟩ : Shape).Idx → EReal) (r : Fin R) (c : Fin C) :
    ∑ k : d.contr.Idx, lhs (d.lhsIdx (ix2 r c) k) * rhs (d.rhsIdx (ix2 r c) k)
      = ∑ k : Fin K, lhs (ix2 r k) * rhs (ix2 k c) := by
  -- the contraction index has one axis, of extent K
  have hr : d.contr.rank = 1 := by rw [d.rank_contr, h1]; rfl
  have hs : d.contr.size ⟨0, by omega⟩ = K := by
    have h := d.size_contr 0 (by rw [h1]; exact Nat.one_pos)
    rw [h]
    simp [h1]
  -- re-index the sum by that axis's one coordinate
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  -- the left operand is read at (r, k): its row from the result, its column from the contraction
  have el : d.lhsIdx (ix2 r c) ((contrEquiv1 d K hr hs).symm k) = ix2 r k := by
    funext a
    match a with
    | ⟨0, _⟩ => exact Fin.ext (lhsIdx_row d h3 h5 (ix2 r c) _)
    | ⟨1, _⟩ => exact Fin.ext ((d.lhsIdx_val_of_single h1 (ix2 r c) _).trans hk)
  -- the right operand is read at (k, c): its row from the contraction, its column from the result
  have er : d.rhsIdx (ix2 r c) ((contrEquiv1 d K hr hs).symm k) = ix2 k c := by
    funext a
    match a with
    | ⟨0, _⟩ => exact Fin.ext ((d.rhsIdx_val_of_single h2 (ix2 r c) _).trans hk)
    | ⟨1, _⟩ => exact Fin.ext (rhsIdx_col d h3 h4 h5 h6 (ix2 r c) _)
  rw [el, er]

/-- The matrix unit's product into a zero accumulator, at (r, c). -/
theorem matmul_zero_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    matmul d prec lhs rhs (constant ⟨2, ![R, C]⟩ .f32 0x00000000#32) (ix2 r c)
      = ∑ k : Fin K, lhs (ix2 r k) * rhs (ix2 k c) := by
  -- the product into zeros is the sum over the contraction index, which is the sum over k
  show FloatOps.matmul d prec lhs rhs (constant ⟨2, ![R, C]⟩ .f32 0x00000000#32) (ix2 r c) = _
  rw [Ideal.matmul_constant_zero_apply]
  exact contr_sum d h1 h2 h3 h4 h5 h6 lhs rhs r c

/-- The host's general product, at (r, c). -/
theorem dotGeneral_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    Host.dotGeneral d prec lhs rhs (ix2 r c) = ∑ k : Fin K, lhs (ix2 r k) * rhs (ix2 k c) := by
  -- the general product is the same sum over the contraction index
  simp only [Host.dotGeneral]
  rw [Ideal.dotGeneral_apply]
  exact contr_sum d h1 h2 h3 h4 h5 h6 lhs rhs r c

/-- A [C] row viewed as a [1, C] array and stretched over R rows reads, at (r, c), the row's entry c. -/
private theorem bias_keepdims_apply {R C : ℕ} {α : Type}
    (hsc : (⟨1, ![C]⟩ : Shape).ShapeCasts ⟨2, ![1, C]⟩) (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) := by
  -- the stretch reads the [1, C] array at (0, c); when C = 1 the column c is itself 0
  refine (broadcastTo_apply _ hbc (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the added unit axis reads the row at its trailing coordinate
  · refine (shapeCast_addUnit_apply ![C] b hsc (ix2 (0 : Fin 1) c)).trans ?_
    exact congrArg b (funext fun a => match a with | ⟨0, _⟩ => rfl)

/-- A layer before its rectifier as the kernel spells it — both operands narrowed to bf16 (the identity on the
    extended reals), the product into zeros, the bias as a [1, C] row stretched over the R rows and added — at (r, c). -/
theorem kernel_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (hsc : (⟨1, ![C]⟩ : Shape).ShapeCasts ⟨2, ![1, C]⟩) (hbc : (⟨2, ![1, C]⟩ : Shape).Broadcasts ⟨2, ![R, C]⟩)
    (X : FVec Ideal ⟨2, ![R, K]⟩ .f32) (W : FVec Ideal ⟨2, ![K, C]⟩ .f32) (b : FVec Ideal ⟨1, ![C]⟩ .f32)
    (r : Fin R) (c : Fin C) :
    addf (matmul d none (truncf .bf16 X hlt) (truncf .bf16 W hlt) (constant ⟨2, ![R, C]⟩ .f32 0x00000000#32))
        (broadcastTo ⟨2, ![R, C]⟩ (shapeCast ⟨2, ![1, C]⟩ b hsc) hbc) (ix2 r c)
      = affine W b (fun k => X (ix2 r k)) c := by
  -- the sum at (r, c) plus the bias entry c; narrowing to bf16 is the identity on the extended reals
  rw [addf_apply, matmul_zero_plain_apply d h1 h2 h3 h4 h5 h6, bias_keepdims_apply hsc hbc b r c]
  rfl

/-- The kernel's rectifier — the maximum with a splat of the zero word — at an index. -/
theorem kernel_relu_apply {s : Shape} (v : FVec Ideal s .f32) (i : s.Idx) :
    maximumf v (broadcast s (Scalar.ofBits (F := Ideal) .f32 0x00000000#32)) i = max (v i) 0 := by
  -- the splat reads the zero word everywhere, and the zero word is the number 0
  rw [maximumf_apply, broadcast_apply]
  show max (v i) (Ideal.ofBits .f32 0x00000000#32) = _
  rw [Ideal.ofBits_zero_f32]

/-- A [C] row laid out as a [1, C] array on its axis 1 and then over R rows on both axes reads, at (r, c), the row's
    entry c. -/
private theorem bias_inDim_apply {R C : ℕ} {α : Type}
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) := by
  -- the outer layout reads the [1, C] array at (0, c); when C = 1 the column c is itself 0
  refine (broadcastInDim_apply ![0, 1] hb2 _ (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the inner layout reads the row at the [1, C] array's coordinate on axis 1
  · refine broadcastInDim_apply ![1] hb1 b (ix2 (0 : Fin 1) c) (ix1 c) fun a => ?_
    match a with
    | ⟨0, _⟩ =>
      show c.val = if C = 1 then 0 else c.val
      split
      · have := c.isLt; omega
      · rfl

/-- A layer before its rectifier as the host spells it — the general product, the bias laid out as a [1, C] row and
    then over the R rows, added — at (r, c). -/
theorem host_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (X : FVec Ideal ⟨2, ![R, K]⟩ .f32) (W : FVec Ideal ⟨2, ![K, C]⟩ .f32) (b : FVec Ideal ⟨1, ![C]⟩ .f32)
    (r : Fin R) (c : Fin C) :
    addf (Host.dotGeneral d none X W)
        (broadcastInDim ⟨2, ![R, C]⟩ ![0, 1] hb2 (broadcastInDim ⟨2, ![1, C]⟩ ![1] hb1 b)) (ix2 r c)
      = affine W b (fun k => X (ix2 r k)) c := by
  -- the sum at (r, c) plus the bias entry c
  rw [addf_apply, dotGeneral_plain_apply d h1 h2 h3 h4 h5 h6, bias_inDim_apply hb1 hb2 b r c]
  rfl

/-- The host's rectifier — the maximum with the zero scalar laid out over the array — at an index. -/
theorem host_relu_apply {s : Shape} (hb0 : (⟨0, ![]⟩ : Shape).BroadcastsInDim s (![] : Fin 0 → Fin s.rank))
    (v : FVec Ideal s .f32) (i : s.Idx) :
    maximumf v (broadcastInDim s ![] hb0 (constant (F := Ideal) ⟨0, ![]⟩ .f32 0x00000000#32)) i = max (v i) 0 := by
  -- the scalar laid out over the array reads its one entry everywhere: the zero word, which is the number 0
  rw [maximumf_apply]
  have e : broadcastInDim s ![] hb0 (constant (F := Ideal) ⟨0, ![]⟩ .f32 0x00000000#32) i
      = constant (F := Ideal) ⟨0, ![]⟩ .f32 0x00000000#32 ix0 :=
    broadcastInDim_apply ![] hb0 _ i ix0 fun a => a.elim0
  rw [e, constant_apply, Ideal.ofBits_zero_f32]

end Cert.Dense

end
-- ==== Proof.Region0.lean ====
/-
  Region 0: the node features times the first layer's weight matrix, five thousand rows at a time.

  The region's grid has ten points.  At point  t  the body reads block  t  of the 50000 × 128 feature array (rows
  5000·t … 5000·t + 4999) and the whole 128 × 128 weight matrix, and leaves in the output window's buffer the product of
  the two into a zero accumulator; point  t  then writes that buffer back as block  t  of the 50000 × 128 result array.

  On the extended reals the body's entry (r, q) is  Σ_k x(r, k) · w(k, q)  over the block's row  r  (`body_entry`: narrowing
  an operand to bf16 changes nothing there), and the stage `Cert.Gcn.product128` at (R, q) is the same sum over the
  array's row  R  (`product_entry`).  Row  r  of block  t  is row  5000·t + r  of the array and the weight window's block
  is the whole matrix at every point (`block_maps`, `feature_block_entry`, `weight_block_entry`), so what point  t  writes
  back is block  t  of the stage's result (`block_of_product`, `written_back`).  The ten blocks cover the array: row  R
  lies in block  R / 5000  (`block_range`, `covered`).  Hence the array ends holding the stage's result (`final0`).
-/
import proofs.«171591_j1683627180254_1_alg».proof.Proof.Gen.KernelIdeal.Frame
import proofs.«171591_j1683627180254_1_alg».proof.Proof.Stages
import proofs.«171591_j1683627180254_1_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Regions

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

namespace Product0

/-- The two zero offsets of a whole-buffer access, as a constant function. -/
theorem zero_offsets : (![0, 0] : Fin 2 → Nat) = fun _ => 0 := funext fun a => by fin_cases a <;> rfl

/-- The body's result at (r, q): the sum over k of the feature block's (r, k) times the weight block's (k, q). -/
theorem body_entry (x : Vec Ideal S5000x128 .f32) (w : Vec Ideal S128x128 .f32) (r : Fin 5000) (q : Fin 128) :
    k0_pay1 (F := Ideal) x w (ix2 r q) = ∑ k : Fin 128, x (ix2 r k) * w (ix2 k q) := by
  unfold k0_pay1
  -- the product into zeros is that sum of its operands, and narrowing to bf16 is the identity on the extended reals
  rw [Cert.Dense.matmul_zero_plain_apply dot_S5000x128_S128x128_S5000x128_1_0_0_1_n_n rfl rfl rfl rfl rfl rfl]
  rfl

/-- The stage's result at (R, q): the same sum over the feature array's row R. -/
theorem product_entry (X : Cert.Gcn.Arr Ideal S50000x128 .f32) (W : Cert.Gcn.Arr Ideal S128x128 .f32)
    (R : Fin 50000) (q : Fin 128) :
    Cert.Gcn.product128 X W (ix2 R q) = ∑ k : Fin 128, X (ix2 R k) * W (ix2 k q) := by
  unfold Cert.Gcn.product128
  exact Cert.Dense.dotGeneral_plain_apply
    Cert.ReferenceIdeal.dot_S50000x128_S128x128_S50000x128_1_0_0_1_n_n rfl rfl rfl rfl rfl rfl none X W R q

/-- Where the blocks sit: at point t the feature window and the result window are at block (t, 0), the weight window
    at block (0, 0). -/
theorem block_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Block n of the stage's result from block n of the features and the whole weight matrix: if row r of `x` is row
    5000·n + r of `X` and `w` is `W`, the body's result at an index of the block is the stage's at the index of the
    array 5000·n rows further down. -/
theorem block_of_product (X : Cert.Gcn.Arr Ideal S50000x128 .f32) (W : Cert.Gcn.Arr Ideal S128x128 .f32)
    (x : Vec Ideal S5000x128 .f32) (w : Vec Ideal S128x128 .f32) (n : ℕ)
    (hx : ∀ (r : Fin 5000) (k : Fin 128) (R : Fin 50000), R.val = n * 5000 + r.val → x (ix2 r k) = X (ix2 R k))
    (hw : ∀ (k : Fin 128) (q : Fin 128), w (ix2 k q) = W (ix2 k q))
    (y : S5000x128.Idx) (i : S50000x128.Idx) (h0 : (i 0).val = n * 5000 + (y 0).val) (h1 : (i 1).val = (y 1).val) :
    k0_pay1 (F := Ideal) x w y = Cert.Gcn.product128 X W i := by
  obtain ⟨r, q, rfl⟩ : ∃ (r : Fin 5000) (q : Fin 128), y = ix2 r q := ⟨y 0, y 1, eq_ix2 y⟩
  obtain ⟨R, q', rfl⟩ : ∃ (R : Fin 50000) (q' : Fin 128), i = ix2 R q' := ⟨i 0, i 1, eq_ix2 i⟩
  obtain rfl : q = q' := Fin.ext h1.symm
  -- both sides are sums over k, equal term by term
  rw [body_entry, product_entry]
  exact Finset.sum_congr rfl fun k _ => by rw [hx r k R h0, hw k q]

/-- Row r of the feature window's block at point t is row 5000·t + r of the feature array. -/
theorem feature_block_entry (c : Dev nD) (t : Fin cfg0.N) (r : Fin 5000) (k : Fin 128) (R : Fin 50000)
    (hR : R.val = t.val * 5000 + r.val) :
    (iblk0 V c 0 t : Vec Ideal S5000x128 .f32) (ix2 r k) = (V c main_arg0 : S50000x128.Idx → Elt Ideal .f32) (ix2 R k) := by
  obtain ⟨e0, e1, -⟩ := block_maps t
  unfold iblk0
  rw [View.read_apply]
  show V c main_arg0 _ = V c main_arg0 _
  congr 1
  funext a
  apply Fin.ext
  -- a block's coordinate is the block's number times the block's extent plus the coordinate inside the block
  match a with
  | ⟨0, _⟩ => show win0_0.index t (0 : Fin 2) * 5000 + 1 * r.val = R.val; omega
  | ⟨1, _⟩ => show win0_0.index t (1 : Fin 2) * 128 + 1 * k.val = k.val; omega

/-- The weight window's block at every point is the whole weight matrix. -/
theorem weight_block_entry (c : Dev nD) (t : Fin cfg0.N) (k : Fin 128) (q : Fin 128) :
    (iblk0 V c 1 t : Vec Ideal S128x128 .f32) (ix2 k q) = (V c main_arg2 : S128x128.Idx → Elt Ideal .f32) (ix2 k q) := by
  obtain ⟨-, -, e0, e1, -⟩ := block_maps t
  unfold iblk0
  rw [View.read_apply]
  show V c main_arg2 _ = V c main_arg2 _
  congr 1
  funext a
  apply Fin.ext
  match a with
  | ⟨0, _⟩ => show win0_1.index t (0 : Fin 2) * 128 + 1 * k.val = k.val; omega
  | ⟨1, _⟩ => show win0_1.index t (1 : Fin 2) * 128 + 1 * q.val = q.val; omega

/-- What point t writes back is block t of the stage's result. -/
theorem written_back (c : Dev nD) (t : Fin cfg0.N) :
    (dat0 (F := Ideal) V c).flushed 2 t
      = ((cfg0.win 2).blk t).view.read (Elt Ideal) (Cert.Gcn.product128 (V c main_arg0) (V c main_arg2)) := by
  show (cfg0.win 2).cut (grid0.coords t) ((dat0 V c).after 2 t) = _
  rw [after0_2]
  unfold out0_2
  -- the body's one store fills the whole buffer, and its two loads read the whole blocks
  rw [View.canon_unit_zero zero_offsets]
  simp only [View.ld_unit_zero (S := S5000x128) zero_offsets, View.ld_unit_zero (S := S128x128) zero_offsets]
  obtain ⟨-, -, -, -, e0, e1⟩ := block_maps t
  funext j
  show k0_pay1 (F := Ideal) (iblk0 V c 0 t) (iblk0 V c 1 t) ((cfg0.win 2).xinj (grid0.coords t) j)
    = Cert.Gcn.product128 (V c main_arg0) (V c main_arg2) (((cfg0.win 2).blk t).view.emb j)
  refine block_of_product (V c main_arg0) (V c main_arg2) _ _ t.val
    (feature_block_entry V c t) (weight_block_entry V c t) _ _ ?_ ?_
  · show win0_2.index t (0 : Fin 2) * 5000 + 1 * (j 0).val = t.val * 5000 + (j 0).val; omega
  · show win0_2.index t (1 : Fin 2) * 128 + 1 * (j 1).val = (j 1).val; omega

/-- An index of the result array is in point t's block iff, on each axis, it lies in the block's range. -/
theorem block_range (t : Fin cfg0.N) (i : S50000x128.Idx) :
    i ∈ ((cfg0.win 2).blk t).view.set
      ↔ ∀ a : Fin 2, win0_2.index t a * S5000x128.size a ≤ (i a).val
          ∧ (i a).val < win0_2.index t a * S5000x128.size a + S5000x128.size a := by
  show i ∈ ((View.whole main_v31).slice (win0_2.rect t)).set ↔ _
  rw [View.set_slice_whole, Rect.mem_set_unit]
  exact Iff.rfl

/-- The ten blocks cover the result array: row R lies in the block of point R / 5000. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by omega⟩, rfl⟩
  obtain ⟨-, -, -, -, e0, e1⟩ := block_maps t
  refine ⟨t, flush0_2 t, ?_⟩
  rw [block_range]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

end Product0

theorem final0 (c : Dev nD) :
    (dat0 (F := Ideal) V c).arrAt 2 cfg0.N = Cert.Gcn.product128 (V c main_arg0) (V c main_arg2) :=
  -- every point writes back its block of the stage's result, and the blocks cover the array
  (dat0 (F := Ideal) V c).arrAt_eq_of_cover 2 (Cert.Gcn.product128 (V c main_arg0) (V c main_arg2))
    (fun t _ => Product0.written_back V c t) Product0.covered

end Cert.KernelIdeal.Regions

end
-- ==== Proof.LibBiasRow.lean ====
/-
  A bias row added to every row of a matrix, read at an entry.

  A row  b  of C numbers is added to each of the R rows of an [R, C] array by first giving it a leading axis of
  extent 1 and then repeating that one row R times. A vector program spells the two steps as a shape cast
  [C] → [1, C] followed by a broadcast [1, C] → [R, C]; a host program spells them as two layouts in dimensions,
  [C] → [1, C] on axis 1 and [1, C] → [R, C] on axes (0, 1). Either way the entry (r, c) of the result is  b_c :
  the repetition reads the single row at (0, c) (`stretch_row_apply`, `layout_rows_apply`), and the single row at
  (0, c) is the entry c of  b  (`cast_row_apply`, `layout_row_apply`). The two whole spellings at an entry are
  `cast_stretch_apply` and `layout_layout_apply`. All of it is generic in R, C and the element type; when C = 1
  the column c is itself 0, which is the only case distinction.
-/
import Idealize.ShloMosaic.Lib.ValueIdx
import Idealize.ShloMosaic.Lib.ValueLayout
import Idealize.ShloMosaic.Lib.Pipeline.Value

noncomputable section

namespace Cert.BiasRow

open Idealize.ShloMosaic Idealize.ShloMosaic.ValueIdx

variable {R C : ℕ} {α : Type}

/-- A column number below C is 0 when C = 1, and is itself otherwise. -/
theorem col_val (c : Fin C) : c.val = if C = 1 then 0 else c.val := by
  split
  · have := c.isLt; omega
  · rfl

/-- One row repeated R times by a vector broadcast reads, at (r, c), the row's entry (0, c). -/
theorem stretch_row_apply (hbc : (⟨2, ![1, C]⟩ : Shape).Broadcasts ⟨2, ![R, C]⟩)
    (v : (⟨2, ![1, C]⟩ : Shape).Idx → α) (r : Fin R) (c : Fin C) :
    broadcastTo ⟨2, ![R, C]⟩ v hbc (ix2 r c) = v (ix2 (0 : Fin 1) c) :=
  broadcastTo_apply v hbc (ix2 r c) (ix2 (0 : Fin 1) c) fun a =>
    match a with
    | ⟨0, _⟩ => (if_pos rfl).symm
    | ⟨1, _⟩ => col_val c

/-- A row given a leading unit axis by a shape cast reads, at (0, c), its entry c. -/
theorem cast_row_apply (hsc : (⟨1, ![C]⟩ : Shape).ShapeCasts ⟨2, ![1, C]⟩)
    (b : (⟨1, ![C]⟩ : Shape).Idx → α) (c : Fin C) :
    shapeCast ⟨2, ![1, C]⟩ b hsc (ix2 (0 : Fin 1) c) = b (ix1 c) :=
  (shapeCast_addUnit_apply ![C] b hsc (ix2 (0 : Fin 1) c)).trans
    (congrArg b (funext fun a => match a with | ⟨0, _⟩ => rfl))

/-- The vector spelling whole: cast to [1, C], then repeated over R rows, at (r, c). -/
theorem cast_stretch_apply (hsc : (⟨1, ![C]⟩ : Shape).ShapeCasts ⟨2, ![1, C]⟩)
    (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) :=
  (stretch_row_apply hbc _ r c).trans (cast_row_apply hsc b c)

/-- One row laid out over R rows on axes (0, 1) reads, at (r, c), the row's entry (0, c). -/
theorem layout_rows_apply (hb2 : (⟨2, ![1, C]⟩ : Shape).BroadcastsInDim ⟨2, ![R, C]⟩ (![0, 1] : Fin 2 → Fin 2))
    (v : (⟨2, ![1, C]⟩ : Shape).Idx → α) (r : Fin R) (c : Fin C) :
    broadcastInDim ⟨2, ![R, C]⟩ ![0, 1] hb2 v (ix2 r c) = v (ix2 (0 : Fin 1) c) :=
by
  refine broadcastInDim_apply ![0, 1] hb2 v (ix2 r c) (ix2 (0 : Fin 1) c) fun a => ?_
  match a with
  | ⟨0, _⟩ => exact (if_pos rfl).symm
  | ⟨1, _⟩ => show c.val = if C = 1 then 0 else c.val; exact col_val c

/-- A row laid out as a [1, C] array on axis 1 reads, at (0, c), its entry c. -/
theorem layout_row_apply (hb1 : (⟨1, ![C]⟩ : Shape).BroadcastsInDim ⟨2, ![1, C]⟩ (![1] : Fin 1 → Fin 2))
    (b : (⟨1, ![C]⟩ : Shape).Idx → α) (c : Fin C) :
    broadcastInDim ⟨2, ![1, C]⟩ ![1] hb1 b (ix2 (0 : Fin 1) c) = b (ix1 c) :=
by
  refine broadcastInDim_apply ![1] hb1 b (ix2 (0 : Fin 1) c) (ix1 c) fun a => ?_
  match a with
  | ⟨0, _⟩ => show c.val = if C = 1 then 0 else c.val; exact col_val c

/-- The host spelling whole: laid out as [1, C] on axis 1, then over R rows, at (r, c). -/
theorem layout_layout_apply (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) :=
  (layout_rows_apply hb2 _ r c).trans (layout_row_apply hb1 b c)

end Cert.BiasRow

end
-- ==== Proof.Region1.lean ====
/-
  Region 1: the first layer's ending. The region walks the 50000 rows of the aggregated features in 10 blocks of
  5000 rows; at block t it reads rows 5000·t … 5000·t + 4999 of the array and the whole bias row (a [1, 128] array),
  adds the bias row to every row of the block, takes the maximum with 0, and writes the result back as rows
  5000·t … 5000·t + 4999 of the output.

  So the entry (r, q) of what block t writes is  max (A(5000·t + r, q) + b_q) 0 : the block's entry (r, q) is the
  array's entry (5000·t + r, q), the bias window's entry (0, q) is b_q, and the body at an entry is the sum of the two
  followed by the maximum with 0 (`block_entry`). The stage `Cert.Gcn.biasRelu A b` at (R, q) is
  max (A(R, q) + b_q) 0  (`stage_entry`), so every block written back is its block of that one array
  (`written_back`); row R lies in the block of the point R / 5000 (`covered`), hence the output array ends
  holding the stage (`final1`).
-/
import proofs.«171591_j1683627180254_1_alg».proof.Proof.Gen.KernelIdeal.Frame
import proofs.«171591_j1683627180254_1_alg».proof.Proof.Stages
import proofs.«171591_j1683627180254_1_alg».proof.Proof.LibDense
import proofs.«171591_j1683627180254_1_alg».proof.Proof.LibBiasRow
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

namespace Ending1

/-- The body at an entry: the block's entry plus the bias row's entry of that column, then the maximum with 0.
    The two shape casts are to the operand's own shape; the repetition over the 5000 rows reads the one row. -/
theorem block_entry (x0 : Vec Ideal S5000x128 .f32) (x1 : Vec Ideal S1x128 .f32) (r : Fin 5000) (q : Fin 128) :
    k1_pay1 (F := Ideal) x0 x1 (ix2 r q) = max (x0 (ix2 r q) + x1 (ix2 (0 : Fin 1) q)) 0 := by
  unfold k1_pay1
  rw [Cert.Dense.kernel_relu_apply, addf_apply, shapeCast_self, shapeCast_self, Cert.BiasRow.stretch_row_apply]

/-- The stage at an entry: the array's entry plus the bias entry of that column, then the maximum with 0. -/
theorem stage_entry (A : FVec Ideal S50000x128 .f32) (b : FVec Ideal S128 .f32) (R : Fin 50000) (q : Fin 128) :
    Cert.Gcn.biasRelu (F := Ideal) A b (ix2 R q) = max (A (ix2 R q) + b (ix1 q)) 0 := by
  unfold Cert.Gcn.biasRelu
  rw [Cert.Dense.host_relu_apply, addf_apply, Cert.BiasRow.layout_layout_apply]

/-- A whole block is read at offset 0 on both axes. -/
theorem zero_offsets : (![0, 0] : Fin 2 → Nat) = fun _ => 0 := funext fun a => by fin_cases a <;> rfl

/-- The index maps over the grid: the input rows move with the output rows, point t at block row t and block
    column 0; the bias window stays on its one block. -/
theorem block_indices : ∀ t : Fin cfg1.N, win1_0.index t (0 : Fin 2) = win1_2.index t (0 : Fin 2)
    ∧ win1_0.index t (1 : Fin 2) = win1_2.index t (1 : Fin 2)
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the stage of the input array and the bias: entry (r, q) of the block
    is entry (5000·t + r, q) of the array, on the input side and on the output side alike, and the bias window's
    entry (0, q) is b_q. -/
theorem written_back (c : Dev nD) (b : FVec Ideal S128 .f32)
    (hb : V c main_v45 = shapeCast S1x128 b shapeCasts_S128_S1x128) (t : Fin cfg1.N) :
    (dat1 (F := Ideal) V c).flushed 2 t
      = ((cfg1.win 2).blk t).view.read (Elt Ideal) (Cert.Gcn.biasRelu (F := Ideal) (V c main_v44) b) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S1x128) zero_offsets]
  obtain ⟨e0, e1, e2, e3, e4, e5⟩ := block_indices t
  have ht : t.val < 10 := lt_of_lt_of_eq t.isLt N_1
  funext j
  have hr : (j 0).val < 5000 := (j 0).isLt
  have hq : (j 1).val < 128 := (j 1).isLt
  -- the index inside the block, and the array index it stands for, in coordinates
  have hy : (cfg1.win 2).xinj (grid1.coords t) j = ix2 (⟨(j 0).val, hr⟩ : Fin 5000) (⟨(j 1).val, hq⟩ : Fin 128) :=
    funext fun a => match a with | ⟨0, _⟩ => rfl | ⟨1, _⟩ => rfl
  have hi : ((cfg1.win 2).blk t).view.emb j
      = ix2 (⟨t.val * 5000 + (j 0).val, by omega⟩ : Fin 50000) (⟨(j 1).val, hq⟩ : Fin 128) := by
    funext a; apply Fin.ext
    match a with
    | ⟨0, _⟩ => show win1_2.index t (0 : Fin 2) * 5000 + 1 * (j 0).val = t.val * 5000 + (j 0).val; omega
    | ⟨1, _⟩ => show win1_2.index t (1 : Fin 2) * 128 + 1 * (j 1).val = (j 1).val; omega
  show k1_pay1 (F := Ideal) (iblk1 V c 0 t) (iblk1 V c 1 t) ((cfg1.win 2).xinj (grid1.coords t) j)
    = Cert.Gcn.biasRelu (F := Ideal) (V c main_v44) b (((cfg1.win 2).blk t).view.emb j)
  rw [hy, hi, stage_entry]
  refine (block_entry (iblk1 V c 0 t) (iblk1 V c 1 t) _ _).trans ?_
  -- the input block's entry (r, q) is the array's entry (5000·t + r, q)
  have h0 : iblk1 V c 0 t (ix2 (⟨(j 0).val, hr⟩ : Fin 5000) (⟨(j 1).val, hq⟩ : Fin 128))
      = V c main_v44 (ix2 (⟨t.val * 5000 + (j 0).val, by omega⟩ : Fin 50000) (⟨(j 1).val, hq⟩ : Fin 128)) := by
    show V c main_v44 (((cfg1.win 0).blk t).view.emb (ix2 (⟨(j 0).val, hr⟩ : Fin 5000) (⟨(j 1).val, hq⟩ : Fin 128))) = _
    refine congrArg _ (funext fun a => Fin.ext ?_)
    match a with
    | ⟨0, _⟩ => show win1_0.index t (0 : Fin 2) * 5000 + 1 * (j 0).val = t.val * 5000 + (j 0).val; omega
    | ⟨1, _⟩ => show win1_0.index t (1 : Fin 2) * 128 + 1 * (j 1).val = (j 1).val; omega
  -- the bias window's block is the whole [1, 128] array, whose entry (0, q) is b_q
  have h1 : iblk1 V c 1 t (ix2 (0 : Fin 1) (⟨(j 1).val, hq⟩ : Fin 128)) = b (ix1 (⟨(j 1).val, hq⟩ : Fin 128)) := by
    show V c main_v45 (((cfg1.win 1).blk t).view.emb (ix2 (0 : Fin 1) (⟨(j 1).val, hq⟩ : Fin 128))) = _
    rw [hb]
    refine (congrArg _ (funext fun a => Fin.ext ?_)).trans (Cert.BiasRow.cast_row_apply shapeCasts_S128_S1x128 b _)
    match a with
    | ⟨0, _⟩ => show win1_1.index t (0 : Fin 2) * 1 + 1 * 0 = 0; omega
    | ⟨1, _⟩ => show win1_1.index t (1 : Fin 2) * 128 + 1 * (j 1).val = (j 1).val; omega
  rw [h0, h1]

/-- An index of the array is in point t's block iff each coordinate is in the block's range on its axis. -/
theorem block_range (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v46).slice (win1_2.rect t)).set ↔ _
  rw [View.set_slice_whole, Rect.mem_set_unit]
  exact Iff.rfl

/-- Every index of the array is in the block of a point that writes back: row R in that of the point R / 5000. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, lt_of_lt_of_eq (by omega : (i 0).val / 5000 < 10) N_1.symm⟩, rfl⟩
  obtain ⟨-, -, -, -, e4, e5⟩ := block_indices t
  refine ⟨t, flush1_2 t, ?_⟩
  rw [block_range]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 128 ≤ (i 1).val ∧ (i 1).val < win1_2.index t (1 : Fin 2) * 128 + 128
    omega

end Ending1

/-- After region 1 its output array holds the first layer's ending of its input array: the bias row added to every
    node's 128 features, then the maximum with 0. -/
theorem final1 (c : Dev nD) (b : FVec Ideal S128 .f32) (hb : V c main_v45 = shapeCast S1x128 b shapeCasts_S128_S1x128) :
    (dat1 (F := Ideal) V c).arrAt 2 cfg1.N = Cert.Gcn.biasRelu (V c main_v44) b :=
  (dat1 (F := Ideal) V c).arrAt_eq_of_cover 2 (Cert.Gcn.biasRelu (F := Ideal) (V c main_v44) b)
    (fun t _ => Ending1.written_back V c b hb t) Ending1.covered

end Cert.KernelIdeal.Regions

end
-- ==== Proof.Region2.lean ====
/-
  Region 2: the first layer's output times the second layer's weight matrix, five thousand rows at a time.

  The region's grid has ten points.  At point  t  the body reads block  t  of the 50000 × 128 array of the first layer's
  output (rows 5000·t … 5000·t + 4999) and the whole 128 × 128 weight matrix, and leaves in the output window's buffer the
  product of the two into a zero accumulator; point  t  then writes that buffer back as block  t  of the 50000 × 128
  result array.

  On the extended reals the body's entry (r, q) is  Σ_k x(r, k) · w(k, q)  over the block's row  r  (`body_entry`: the cast
  of the block to its own shape and the narrowing of an operand to bf16 change nothing there), and the stage
  `Cert.Gcn.product128` at (R, q) is the same sum over the array's row  R  (`product_entry`).  Row  r  of block  t  is row
  5000·t + r  of the array and the weight window's block is the whole matrix at every point (`block_maps`,
  `feature_block_entry`, `weight_block_entry`), so what point  t  writes back is block  t  of the stage's result
  (`block_of_product`, `written_back`).  The ten blocks cover the array: row  R  lies in block  R / 5000  (`block_range`,
  `covered`).  Hence the array ends holding the stage's result (`final2`).
-/
import proofs.«171591_j1683627180254_1_alg».proof.Proof.Gen.KernelIdeal.Frame
import proofs.«171591_j1683627180254_1_alg».proof.Proof.Stages
import proofs.«171591_j1683627180254_1_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Regions

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

namespace Product2

/-- The two zero offsets of a whole-buffer access, as a constant function. -/
theorem zero_offsets : (![0, 0] : Fin 2 → Nat) = fun _ => 0 := funext fun a => by fin_cases a <;> rfl

/-- The body's result at (r, q): the sum over k of the feature block's (r, k) times the weight block's (k, q). -/
theorem body_entry (x : Vec Ideal S5000x128 .f32) (w : Vec Ideal S128x128 .f32) (r : Fin 5000) (q : Fin 128) :
    k2_pay1 (F := Ideal) x w (ix2 r q) = ∑ k : Fin 128, x (ix2 r k) * w (ix2 k q) := by
  unfold k2_pay1
  -- a cast to the same shape is the identity; the product into zeros is that sum of its operands, and narrowing to
  -- bf16 is the identity on the extended reals
  rw [shapeCast_self,
    Cert.Dense.matmul_zero_plain_apply dot_S5000x128_S128x128_S5000x128_1_0_0_1_n_n rfl rfl rfl rfl rfl rfl]
  rfl

/-- The stage's result at (R, q): the same sum over the feature array's row R. -/
theorem product_entry (X : Cert.Gcn.Arr Ideal S50000x128 .f32) (W : Cert.Gcn.Arr Ideal S128x128 .f32)
    (R : Fin 50000) (q : Fin 128) :
    Cert.Gcn.product128 X W (ix2 R q) = ∑ k : Fin 128, X (ix2 R k) * W (ix2 k q) := by
  unfold Cert.Gcn.product128
  exact Cert.Dense.dotGeneral_plain_apply
    Cert.ReferenceIdeal.dot_S50000x128_S128x128_S50000x128_1_0_0_1_n_n rfl rfl rfl rfl rfl rfl none X W R q

/-- Where the blocks sit: at point t the feature window and the result window are at block (t, 0), the weight window
    at block (0, 0). -/
theorem block_maps : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Block n of the stage's result from block n of the features and the whole weight matrix: if row r of `x` is row
    5000·n + r of `X` and `w` is `W`, the body's result at an index of the block is the stage's at the index of the
    array 5000·n rows further down. -/
theorem block_of_product (X : Cert.Gcn.Arr Ideal S50000x128 .f32) (W : Cert.Gcn.Arr Ideal S128x128 .f32)
    (x : Vec Ideal S5000x128 .f32) (w : Vec Ideal S128x128 .f32) (n : ℕ)
    (hx : ∀ (r : Fin 5000) (k : Fin 128) (R : Fin 50000), R.val = n * 5000 + r.val → x (ix2 r k) = X (ix2 R k))
    (hw : ∀ (k : Fin 128) (q : Fin 128), w (ix2 k q) = W (ix2 k q))
    (y : S5000x128.Idx) (i : S50000x128.Idx) (h0 : (i 0).val = n * 5000 + (y 0).val) (h1 : (i 1).val = (y 1).val) :
    k2_pay1 (F := Ideal) x w y = Cert.Gcn.product128 X W i := by
  obtain ⟨r, q, rfl⟩ : ∃ (r : Fin 5000) (q : Fin 128), y = ix2 r q := ⟨y 0, y 1, eq_ix2 y⟩
  obtain ⟨R, q', rfl⟩ : ∃ (R : Fin 50000) (q' : Fin 128), i = ix2 R q' := ⟨i 0, i 1, eq_ix2 i⟩
  obtain rfl : q = q' := Fin.ext h1.symm
  -- both sides are sums over k, equal term by term
  rw [body_entry, product_entry]
  exact Finset.sum_congr rfl fun k _ => by rw [hx r k R h0, hw k q]

/-- Row r of the feature window's block at point t is row 5000·t + r of the array it is cut from. -/
theorem feature_block_entry (c : Dev nD) (t : Fin cfg2.N) (r : Fin 5000) (k : Fin 128) (R : Fin 50000)
    (hR : R.val = t.val * 5000 + r.val) :
    (iblk2 V c 0 t : Vec Ideal S5000x128 .f32) (ix2 r k) = (V c main_v46 : S50000x128.Idx → Elt Ideal .f32) (ix2 R k) := by
  obtain ⟨e0, e1, -⟩ := block_maps t
  unfold iblk2
  rw [View.read_apply]
  show V c main_v46 _ = V c main_v46 _
  congr 1
  funext a
  apply Fin.ext
  -- a block's coordinate is the block's number times the block's extent plus the coordinate inside the block
  match a with
  | ⟨0, _⟩ => show win2_0.index t (0 : Fin 2) * 5000 + 1 * r.val = R.val; omega
  | ⟨1, _⟩ => show win2_0.index t (1 : Fin 2) * 128 + 1 * k.val = k.val; omega

/-- The weight window's block at every point is the whole weight matrix. -/
theorem weight_block_entry (c : Dev nD) (t : Fin cfg2.N) (k : Fin 128) (q : Fin 128) :
    (iblk2 V c 1 t : Vec Ideal S128x128 .f32) (ix2 k q) = (V c main_arg4 : S128x128.Idx → Elt Ideal .f32) (ix2 k q) := by
  obtain ⟨-, -, e0, e1, -⟩ := block_maps t
  unfold iblk2
  rw [View.read_apply]
  show V c main_arg4 _ = V c main_arg4 _
  congr 1
  funext a
  apply Fin.ext
  match a with
  | ⟨0, _⟩ => show win2_1.index t (0 : Fin 2) * 128 + 1 * k.val = k.val; omega
  | ⟨1, _⟩ => show win2_1.index t (1 : Fin 2) * 128 + 1 * q.val = q.val; omega

/-- What point t writes back is block t of the stage's result. -/
theorem written_back (c : Dev nD) (t : Fin cfg2.N) :
    (dat2 (F := Ideal) V c).flushed 2 t
      = ((cfg2.win 2).blk t).view.read (Elt Ideal) (Cert.Gcn.product128 (V c main_v46) (V c main_arg4)) := by
  show (cfg2.win 2).cut (grid2.coords t) ((dat2 V c).after 2 t) = _
  rw [after2_2]
  unfold out2_2
  -- the body's one store fills the whole buffer, and its two loads read the whole blocks
  rw [View.canon_unit_zero zero_offsets]
  simp only [View.ld_unit_zero (S := S5000x128) zero_offsets, View.ld_unit_zero (S := S128x128) zero_offsets]
  obtain ⟨-, -, -, -, e0, e1⟩ := block_maps t
  funext j
  show k2_pay1 (F := Ideal) (iblk2 V c 0 t) (iblk2 V c 1 t) ((cfg2.win 2).xinj (grid2.coords t) j)
    = Cert.Gcn.product128 (V c main_v46) (V c main_arg4) (((cfg2.win 2).blk t).view.emb j)
  refine block_of_product (V c main_v46) (V c main_arg4) _ _ t.val
    (feature_block_entry V c t) (weight_block_entry V c t) _ _ ?_ ?_
  · show win2_2.index t (0 : Fin 2) * 5000 + 1 * (j 0).val = t.val * 5000 + (j 0).val; omega
  · show win2_2.index t (1 : Fin 2) * 128 + 1 * (j 1).val = (j 1).val; omega

/-- An index of the result array is in point t's block iff, on each axis, it lies in the block's range. -/
theorem block_range (t : Fin cfg2.N) (i : S50000x128.Idx) :
    i ∈ ((cfg2.win 2).blk t).view.set
      ↔ ∀ a : Fin 2, win2_2.index t a * S5000x128.size a ≤ (i a).val
          ∧ (i a).val < win2_2.index t a * S5000x128.size a + S5000x128.size a := by
  show i ∈ ((View.whole main_v47).slice (win2_2.rect t)).set ↔ _
  rw [View.set_slice_whole, Rect.mem_set_unit]
  exact Iff.rfl

/-- The ten blocks cover the result array: row R lies in the block of point R / 5000. -/
theorem covered (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by omega⟩, rfl⟩
  obtain ⟨-, -, -, -, e0, e1⟩ := block_maps t
  refine ⟨t, flush2_2 t, ?_⟩
  rw [block_range]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 128 ≤ (i 1).val ∧ (i 1).val < win2_2.index t (1 : Fin 2) * 128 + 128
    omega

end Product2

theorem final2 (c : Dev nD) :
    (dat2 (F := Ideal) V c).arrAt 2 cfg2.N = Cert.Gcn.product128 (V c main_v46) (V c main_arg4) :=
  -- every point writes back its block of the stage's result, and the blocks cover the array
  (dat2 (F := Ideal) V c).arrAt_eq_of_cover 2 (Cert.Gcn.product128 (V c main_v46) (V c main_arg4))
    (fun t _ => Product2.written_back V c t) Product2.covered

end Cert.KernelIdeal.Regions

end
-- ==== Proof.Region3.lean ====
/-
  Region 3: the second layer's ending. The region walks the 50000 rows of the aggregated features in 10 blocks of
  5000 rows; at block t it reads rows 5000·t … 5000·t + 4999 of the array and the whole bias row (a [1, 128] array),
  adds the bias row to every row of the block, takes the maximum with 0, and writes the result back as rows
  5000·t … 5000·t + 4999 of the output.

  So the entry (r, q) of what block t writes is  max (A(5000·t + r, q) + b_q) 0 : the block's entry (r, q) is the
  array's entry (5000·t + r, q), the bias window's entry (0, q) is b_q, and the body at an entry is the sum of the two
  followed by the maximum with 0 (`block_entry`). The stage `Cert.Gcn.biasRelu A b` at (R, q) is
  max (A(R, q) + b_q) 0  (`stage_entry`), so every block written back is its block of that one array
  (`written_back`); row R lies in the block of the point R / 5000 (`covered`), hence the output array ends
  holding the stage (`final3`).
-/
import proofs.«171591_j1683627180254_1_alg».proof.Proof.Gen.KernelIdeal.Frame
import proofs.«171591_j1683627180254_1_alg».proof.Proof.Stages
import proofs.«171591_j1683627180254_1_alg».proof.Proof.LibDense
import proofs.«171591_j1683627180254_1_alg».proof.Proof.LibBiasRow
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

namespace Ending3

/-- The body at an entry: the block's entry plus the bias row's entry of that column, then the maximum with 0.
    The two shape casts are to the operand's own shape; the repetition over the 5000 rows reads the one row. -/
theorem block_entry (x0 : Vec Ideal S5000x128 .f32) (x1 : Vec Ideal S1x128 .f32) (r : Fin 5000) (q : Fin 128) :
    k3_pay1 (F := Ideal) x0 x1 (ix2 r q) = max (x0 (ix2 r q) + x1 (ix2 (0 : Fin 1) q)) 0 := by
  unfold k3_pay1
  rw [Cert.Dense.kernel_relu_apply, addf_apply, shapeCast_self, shapeCast_self, Cert.BiasRow.stretch_row_apply]

/-- The stage at an entry: the array's entry plus the bias entry of that column, then the maximum with 0. -/
theorem stage_entry (A : FVec Ideal S50000x128 .f32) (b : FVec Ideal S128 .f32) (R : Fin 50000) (q : Fin 128) :
    Cert.Gcn.biasRelu (F := Ideal) A b (ix2 R q) = max (A (ix2 R q) + b (ix1 q)) 0 := by
  unfold Cert.Gcn.biasRelu
  rw [Cert.Dense.host_relu_apply, addf_apply, Cert.BiasRow.layout_layout_apply]

/-- A whole block is read at offset 0 on both axes. -/
theorem zero_offsets : (![0, 0] : Fin 2 → Nat) = fun _ => 0 := funext fun a => by fin_cases a <;> rfl

/-- The index maps over the grid: the input rows move with the output rows, point t at block row t and block
    column 0; the bias window stays on its one block. -/
theorem block_indices : ∀ t : Fin cfg3.N, win3_0.index t (0 : Fin 2) = win3_2.index t (0 : Fin 2)
    ∧ win3_0.index t (1 : Fin 2) = win3_2.index t (1 : Fin 2)
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the stage of the input array and the bias: entry (r, q) of the block
    is entry (5000·t + r, q) of the array, on the input side and on the output side alike, and the bias window's
    entry (0, q) is b_q. -/
theorem written_back (c : Dev nD) (b : FVec Ideal S128 .f32)
    (hb : V c main_v61 = shapeCast S1x128 b shapeCasts_S128_S1x128) (t : Fin cfg3.N) :
    (dat3 (F := Ideal) V c).flushed 2 t
      = ((cfg3.win 2).blk t).view.read (Elt Ideal) (Cert.Gcn.biasRelu (F := Ideal) (V c main_v60) b) := by
  show (cfg3.win 2).cut (grid3.coords t) ((dat3 V c).after 2 t) = _
  rw [after3_2]
  unfold out3_2
  rw [View.canon_unit_zero zero_offsets]
  simp only [View.ld_unit_zero (S := S5000x128) zero_offsets, View.ld_unit_zero (S := S1x128) zero_offsets]
  obtain ⟨e0, e1, e2, e3, e4, e5⟩ := block_indices t
  have ht : t.val < 10 := lt_of_lt_of_eq t.isLt N_3
  funext j
  have hr : (j 0).val < 5000 := (j 0).isLt
  have hq : (j 1).val < 128 := (j 1).isLt
  -- the index inside the block, and the array index it stands for, in coordinates
  have hy : (cfg3.win 2).xinj (grid3.coords t) j = ix2 (⟨(j 0).val, hr⟩ : Fin 5000) (⟨(j 1).val, hq⟩ : Fin 128) :=
    funext fun a => match a with | ⟨0, _⟩ => rfl | ⟨1, _⟩ => rfl
  have hi : ((cfg3.win 2).blk t).view.emb j
      = ix2 (⟨t.val * 5000 + (j 0).val, by omega⟩ : Fin 50000) (⟨(j 1).val, hq⟩ : Fin 128) := by
    funext a; apply Fin.ext
    match a with
    | ⟨0, _⟩ => show win3_2.index t (0 : Fin 2) * 5000 + 1 * (j 0).val = t.val * 5000 + (j 0).val; omega
    | ⟨1, _⟩ => show win3_2.index t (1 : Fin 2) * 128 + 1 * (j 1).val = (j 1).val; omega
  show k3_pay1 (F := Ideal) (iblk3 V c 0 t) (iblk3 V c 1 t) ((cfg3.win 2).xinj (grid3.coords t) j)
    = Cert.Gcn.biasRelu (F := Ideal) (V c main_v60) b (((cfg3.win 2).blk t).view.emb j)
  rw [hy, hi, stage_entry]
  refine (block_entry (iblk3 V c 0 t) (iblk3 V c 1 t) _ _).trans ?_
  -- the input block's entry (r, q) is the array's entry (5000·t + r, q)
  have h0 : iblk3 V c 0 t (ix2 (⟨(j 0).val, hr⟩ : Fin 5000) (⟨(j 1).val, hq⟩ : Fin 128))
      = V c main_v60 (ix2 (⟨t.val * 5000 + (j 0).val, by omega⟩ : Fin 50000) (⟨(j 1).val, hq⟩ : Fin 128)) := by
    show V c main_v60 (((cfg3.win 0).blk t).view.emb (ix2 (⟨(j 0).val, hr⟩ : Fin 5000) (⟨(j 1).val, hq⟩ : Fin 128))) = _
    refine congrArg _ (funext fun a => Fin.ext ?_)
    match a with
    | ⟨0, _⟩ => show win3_0.index t (0 : Fin 2) * 5000 + 1 * (j 0).val = t.val * 5000 + (j 0).val; omega
    | ⟨1, _⟩ => show win3_0.index t (1 : Fin 2) * 128 + 1 * (j 1).val = (j 1).val; omega
  -- the bias window's block is the whole [1, 128] array, whose entry (0, q) is b_q
  have h1 : iblk3 V c 1 t (ix2 (0 : Fin 1) (⟨(j 1).val, hq⟩ : Fin 128)) = b (ix1 (⟨(j 1).val, hq⟩ : Fin 128)) := by
    show V c main_v61 (((cfg3.win 1).blk t).view.emb (ix2 (0 : Fin 1) (⟨(j 1).val, hq⟩ : Fin 128))) = _
    rw [hb]
    refine (congrArg _ (funext fun a => Fin.ext ?_)).trans (Cert.BiasRow.cast_row_apply shapeCasts_S128_S1x128 b _)
    match a with
    | ⟨0, _⟩ => show win3_1.index t (0 : Fin 2) * 1 + 1 * 0 = 0; omega
    | ⟨1, _⟩ => show win3_1.index t (1 : Fin 2) * 128 + 1 * (j 1).val = (j 1).val; omega
  rw [h0, h1]

/-- An index of the array is in point t's block iff each coordinate is in the block's range on its axis. -/
theorem block_range (t : Fin cfg3.N) (i : S50000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v62).slice (win3_2.rect t)).set ↔ _
  rw [View.set_slice_whole, Rect.mem_set_unit]
  exact Iff.rfl

/-- Every index of the array is in the block of a point that writes back: row R in that of the point R / 5000. -/
theorem covered (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ : ∃ t : Fin cfg3.N, t.val = (i 0).val / 5000 :=
    ⟨⟨(i 0).val / 5000, lt_of_lt_of_eq (by omega : (i 0).val / 5000 < 10) N_3.symm⟩, rfl⟩
  obtain ⟨-, -, -, -, e4, e5⟩ := block_indices t
  refine ⟨t, flush3_2 t, ?_⟩
  rw [block_range]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 128 ≤ (i 1).val ∧ (i 1).val < win3_2.index t (1 : Fin 2) * 128 + 128
    omega

end Ending3

/-- After region 3 its output array holds the second layer's ending of its input array: the bias row added to every
    node's 128 features, then the maximum with 0. -/
theorem final3 (c : Dev nD) (b : FVec Ideal S128 .f32) (hb : V c main_v61 = shapeCast S1x128 b shapeCasts_S128_S1x128) :
    (dat3 (F := Ideal) V c).arrAt 2 cfg3.N = Cert.Gcn.biasRelu (V c main_v60) b :=
  (dat3 (F := Ideal) V c).arrAt_eq_of_cover 2 (Cert.Gcn.biasRelu (F := Ideal) (V c main_v60) b)
    (fun t _ => Ending3.written_back V c b hb t) Ending3.covered

end Cert.KernelIdeal.Regions

end
-- ==== Proof.Region4.lean ====
/-
  Region 4: the second layer's output times the third layer's weight matrix, five thousand rows at a time.

  The region's grid has ten points.  At point  t  the body reads block  t  of the 50000 × 128 array of the second layer's
  output (rows 5000·t … 5000·t + 4999) and the whole 128 × 40 weight matrix, and leaves in the output window's buffer the
  product of the two into a zero accumulator; point  t  then writes that buffer back as block  t  of the 50000 × 40
  result array.

  On the extended reals the body's entry (r, q) is  Σ_k x(r, k) · w(k, q)  over the block's row  r  (`body_entry`: the cast
  of the block to its own shape and the narrowing of an operand to bf16 change nothing there), and the stage
  `Cert.Gcn.product40` at (R, q) is the same sum over the array's row  R  (`product_entry`).  Row  r  of block  t  is row
  5000·t + r  of the array and the weight window's block is the whole matrix at every point (`block_maps`,
  `feature_block_entry`, `weight_block_entry`), so what point  t  writes back is block  t  of the stage's result
  (`block_of_product`, `written_back`).  The ten blocks cover the array: row  R  lies in block  R / 5000  (`block_range`,
  `covered`).  Hence the array ends holding the stage's result (`final4`).
-/
import proofs.«171591_j1683627180254_1_alg».proof.Proof.Gen.KernelIdeal.Frame
import proofs.«171591_j1683627180254_1_alg».proof.Proof.Stages
import proofs.«171591_j1683627180254_1_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Regions

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

namespace Product4

/-- The two zero offsets of a whole-buffer access, as a constant function. -/
theorem zero_offsets : (![0, 0] : Fin 2 → Nat) = fun _ => 0 := funext fun a => by fin_cases a <;> rfl

/-- The body's result at (r, q): the sum over k of the feature block's (r, k) times the weight block's (k, q). -/
theorem body_entry (x : Vec Ideal S5000x128 .f32) (w : Vec Ideal S128x40 .f32) (r : Fin 5000) (q : Fin 40) :
    k4_pay1 (F := Ideal) x w (ix2 r q) = ∑ k : Fin 128, x (ix2 r k) * w (ix2 k q) := by
  unfold k4_pay1
  -- a cast to the same shape is the identity; the product into zeros is that sum of its operands, and narrowing to
  -- bf16 is the identity on the extended reals
  rw [shapeCast_self,
    Cert.Dense.matmul_zero_plain_apply dot_S5000x128_S128x40_S5000x40_1_0_0_1_n_n rfl rfl rfl rfl rfl rfl]
  rfl

/-- The stage's result at (R, q): the same sum over the feature array's row R. -/
theorem product_entry (X : Cert.Gcn.Arr Ideal S50000x128 .f32) (W : Cert.Gcn.Arr Ideal S128x40 .f32)
    (R : Fin 50000) (q : Fin 40) :
    Cert.Gcn.product40 X W (ix2 R q) = ∑ k : Fin 128, X (ix2 R k) * W (ix2 k q) := by
  unfold Cert.Gcn.product40
  exact Cert.Dense.dotGeneral_plain_apply
    Cert.ReferenceIdeal.dot_S50000x128_S128x40_S50000x40_1_0_0_1_n_n rfl rfl rfl rfl rfl rfl none X W R q

/-- Where the blocks sit: at point t the feature window and the result window are at block (t, 0), the weight window
    at block (0, 0). -/
theorem block_maps : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Block n of the stage's result from block n of the features and the whole weight matrix: if row r of `x` is row
    5000·n + r of `X` and `w` is `W`, the body's result at an index of the block is the stage's at the index of the
    array 5000·n rows further down. -/
theorem block_of_product (X : Cert.Gcn.Arr Ideal S50000x128 .f32) (W : Cert.Gcn.Arr Ideal S128x40 .f32)
    (x : Vec Ideal S5000x128 .f32) (w : Vec Ideal S128x40 .f32) (n : ℕ)
    (hx : ∀ (r : Fin 5000) (k : Fin 128) (R : Fin 50000), R.val = n * 5000 + r.val → x (ix2 r k) = X (ix2 R k))
    (hw : ∀ (k : Fin 128) (q : Fin 40), w (ix2 k q) = W (ix2 k q))
    (y : S5000x40.Idx) (i : S50000x40.Idx) (h0 : (i 0).val = n * 5000 + (y 0).val) (h1 : (i 1).val = (y 1).val) :
    k4_pay1 (F := Ideal) x w y = Cert.Gcn.product40 X W i := by
  obtain ⟨r, q, rfl⟩ : ∃ (r : Fin 5000) (q : Fin 40), y = ix2 r q := ⟨y 0, y 1, eq_ix2 y⟩
  obtain ⟨R, q', rfl⟩ : ∃ (R : Fin 50000) (q' : Fin 40), i = ix2 R q' := ⟨i 0, i 1, eq_ix2 i⟩
  obtain rfl : q = q' := Fin.ext h1.symm
  -- both sides are sums over k, equal term by term
  rw [body_entry, product_entry]
  exact Finset.sum_congr rfl fun k _ => by rw [hx r k R h0, hw k q]

/-- Row r of the feature window's block at point t is row 5000·t + r of the array it is cut from. -/
theorem feature_block_entry (c : Dev nD) (t : Fin cfg4.N) (r : Fin 5000) (k : Fin 128) (R : Fin 50000)
    (hR : R.val = t.val * 5000 + r.val) :
    (iblk4 V c 0 t : Vec Ideal S5000x128 .f32) (ix2 r k) = (V c main_v62 : S50000x128.Idx → Elt Ideal .f32) (ix2 R k) := by
  obtain ⟨e0, e1, -⟩ := block_maps t
  unfold iblk4
  rw [View.read_apply]
  show V c main_v62 _ = V c main_v62 _
  congr 1
  funext a
  apply Fin.ext
  -- a block's coordinate is the block's number times the block's extent plus the coordinate inside the block
  match a with
  | ⟨0, _⟩ => show win4_0.index t (0 : Fin 2) * 5000 + 1 * r.val = R.val; omega
  | ⟨1, _⟩ => show win4_0.index t (1 : Fin 2) * 128 + 1 * k.val = k.val; omega

/-- The weight window's block at every point is the whole weight matrix. -/
theorem weight_block_entry (c : Dev nD) (t : Fin cfg4.N) (k : Fin 128) (q : Fin 40) :
    (iblk4 V c 1 t : Vec Ideal S128x40 .f32) (ix2 k q) = (V c main_arg6 : S128x40.Idx → Elt Ideal .f32) (ix2 k q) := by
  obtain ⟨-, -, e0, e1, -⟩ := block_maps t
  unfold iblk4
  rw [View.read_apply]
  show V c main_arg6 _ = V c main_arg6 _
  congr 1
  funext a
  apply Fin.ext
  match a with
  | ⟨0, _⟩ => show win4_1.index t (0 : Fin 2) * 128 + 1 * k.val = k.val; omega
  | ⟨1, _⟩ => show win4_1.index t (1 : Fin 2) * 40 + 1 * q.val = q.val; omega

/-- What point t writes back is block t of the stage's result. -/
theorem written_back (c : Dev nD) (t : Fin cfg4.N) :
    (dat4 (F := Ideal) V c).flushed 2 t
      = ((cfg4.win 2).blk t).view.read (Elt Ideal) (Cert.Gcn.product40 (V c main_v62) (V c main_arg6)) := by
  show (cfg4.win 2).cut (grid4.coords t) ((dat4 V c).after 2 t) = _
  rw [after4_2]
  unfold out4_2
  -- the body's one store fills the whole buffer, and its two loads read the whole blocks
  rw [View.canon_unit_zero zero_offsets]
  simp only [View.ld_unit_zero (S := S5000x128) zero_offsets, View.ld_unit_zero (S := S128x40) zero_offsets]
  obtain ⟨-, -, -, -, e0, e1⟩ := block_maps t
  funext j
  show k4_pay1 (F := Ideal) (iblk4 V c 0 t) (iblk4 V c 1 t) ((cfg4.win 2).xinj (grid4.coords t) j)
    = Cert.Gcn.product40 (V c main_v62) (V c main_arg6) (((cfg4.win 2).blk t).view.emb j)
  refine block_of_product (V c main_v62) (V c main_arg6) _ _ t.val
    (feature_block_entry V c t) (weight_block_entry V c t) _ _ ?_ ?_
  · show win4_2.index t (0 : Fin 2) * 5000 + 1 * (j 0).val = t.val * 5000 + (j 0).val; omega
  · show win4_2.index t (1 : Fin 2) * 40 + 1 * (j 1).val = (j 1).val; omega

/-- An index of the result array is in point t's block iff, on each axis, it lies in the block's range. -/
theorem block_range (t : Fin cfg4.N) (i : S50000x40.Idx) :
    i ∈ ((cfg4.win 2).blk t).view.set
      ↔ ∀ a : Fin 2, win4_2.index t a * S5000x40.size a ≤ (i a).val
          ∧ (i a).val < win4_2.index t a * S5000x40.size a + S5000x40.size a := by
  show i ∈ ((View.whole main_v63).slice (win4_2.rect t)).set ↔ _
  rw [View.set_slice_whole, Rect.mem_set_unit]
  exact Iff.rfl

/-- The ten blocks cover the result array: row R lies in the block of point R / 5000. -/
theorem covered (i : S50000x40.Idx) :
    ∃ t : Fin cfg4.N, (cfg4.win 2).flush t = true ∧ i ∈ ((cfg4.win 2).blk t).view.set := by
  have hi0 : (i 0).val < 50000 := (i 0).isLt
  have hi1 : (i 1).val < 40 := (i 1).isLt
  have hN : cfg4.N = 10 := N_4
  obtain ⟨t, ht⟩ : ∃ t : Fin cfg4.N, t.val = (i 0).val / 5000 := ⟨⟨(i 0).val / 5000, by omega⟩, rfl⟩
  obtain ⟨-, -, -, -, e0, e1⟩ := block_maps t
  refine ⟨t, flush4_2 t, ?_⟩
  rw [block_range]
  intro a
  match a with
  | ⟨0, _⟩ =>
    show win4_2.index t (0 : Fin 2) * 5000 ≤ (i 0).val ∧ (i 0).val < win4_2.index t (0 : Fin 2) * 5000 + 5000
    omega
  | ⟨1, _⟩ =>
    show win4_2.index t (1 : Fin 2) * 40 ≤ (i 1).val ∧ (i 1).val < win4_2.index t (1 : Fin 2) * 40 + 40
    omega

end Product4

theorem final4 (c : Dev nD) :
    (dat4 (F := Ideal) V c).arrAt 2 cfg4.N = Cert.Gcn.product40 (V c main_v62) (V c main_arg6) :=
  -- every point writes back its block of the stage's result, and the blocks cover the array
  (dat4 (F := Ideal) V c).arrAt_eq_of_cover 2 (Cert.Gcn.product40 (V c main_v62) (V c main_arg6))
    (fun t _ => Product4.written_back V c t) Product4.covered

end Cert.KernelIdeal.Regions

end
-- ==== Proof.LibRowMax.lean ====
/-
  The maximum over the last axis of an [a, b] matrix, on the extended reals, read at row i: the fold of `max`, from the
  value of the start word, over the columns c of the matrix's entry at (i, c) — in any order, `max` being commutative
  and associative.
-/
import Idealize.ShloMosaic.PureOps.Ideal.Laws
import Idealize.ShloMosaic.Lib.ValueIdx

namespace Cert.LibRowMax

open Idealize.ShloMosaic Idealize.ShloMosaic.ValueIdx

/-- The row with the column coordinate put back is the entry (i, c). -/
theorem lift_row {a b : ℕ} (h : (⟨2, ![a, b]⟩ : Shape).Reduces [1] ⟨1, ![a]⟩) (i : Fin a) (c : Fin b) :
    h.lift (ix1 i) c = ix2 i c := by
  funext ax
  match ax with
  | ⟨0, _⟩ => rfl
  | ⟨1, _⟩ => rfl

/-- The row maximum at i, folded from the start word's value over the columns. -/
theorem rowMax_apply {a b : ℕ} (src : FVec Ideal (⟨2, ![a, b]⟩ : Shape) .f32) (acc : BitVec 32)
    (h : (⟨2, ![a, b]⟩ : Shape).Reduces [1] ⟨1, ![a]⟩) (hφ : FKind.Formats .f32)
    (hacc : acc = FKind.maximumf.neutral .f32 hφ) (i : Fin a) :
    multiReduction .maximumf [1] ⟨1, ![a]⟩ src acc h hφ hacc (ix1 i)
      = (Finset.univ : Finset (Fin b)).fold max (Ideal.ofBits .f32 acc) (fun c => src (ix2 i c)) := by
  refine (Ideal.multiReduction_maximumf_single src acc h hφ hacc (ix1 i)).trans ?_
  have e : (src ∘ h.lift (ix1 i)) = fun c : Fin b => src (ix2 i c) :=
    funext fun c => congrArg src (lift_row h i c)
  rw [e]
  rfl

end Cert.LibRowMax
-- ==== Proof.LibKeepdimsColumn.lean ====
/-
  The layout steps of a row statistic kept as a column (a sum over the last axis with the reduced axis kept at size one),
  read at an index given by coordinates, for any element type and any extents:
  a vector of length a laid out as an [a, 1] column reads, at (i, u), the vector at i;
  an [a, 1] column spread over the b columns of an [a, b] matrix reads, at (i, c), the column at (i, 0);
  and, on the extended reals, the sum over the last axis of an [a, b] matrix reads, at i, the sum over c of the matrix at (i, c).
-/
import Idealize.ShloMosaic.Lib.ValueLayout
import Idealize.ShloMosaic.PureOps.Ideal.Laws

open scoped BigOperators

namespace Cert.LibKeepdimsColumn

open Idealize.ShloMosaic Idealize.ShloMosaic.ValueIdx

variable {α : Type}

/-- A vector of length `a` laid out as an `[a, 1]` column: the entry at `(i, u)` is the vector's entry at `i`,
    whatever the unit coordinate `u` (both have row-major position `i`). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread over the columns of an `[a, b]` matrix: the entry at `(i, c)` is the column's entry in
    row `i`. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- On the extended reals, the sum over the last axis of an `[a, b]` matrix, started from the zero word: the entry at `i`
    is the sum over the columns `c` of the matrix's entry at `(i, c)`. (The start word's evidence is typed as a printed
    program carries it: the word equal to itself, which is what the neutral word of a sum unfolds to.) -/
theorem rowSum_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ c : Fin b, src (ix2 i c) := by
  refine (Ideal.multiReduction_add_single src 0x00000000#32 h hφ hacc (ix1 i)).trans ?_
  refine Finset.sum_congr rfl fun c _ => congrArg src ?_
  funext ax
  match ax with
  | ⟨0, _⟩ => rfl
  | ⟨1, _⟩ => rfl

end Cert.LibKeepdimsColumn
-- ==== Proof.Region5.lean ====
/-
  Region 5: the last layer's ending, 5000 rows at a time.

  The region reads the 50000 × 40 array of aggregated features in ten blocks of 5000 rows and the one-row bias array whole,
  and writes a 50000 × 40 array in the same ten blocks. On a block x0 and the bias row x1 its body forms, row by row,
  val = x0 + x1, M = the largest of the row's 40 values, s = val − M, and leaves s − log Σ exp s. Every entry of the result
  depends on its own row only, so the entry (r, q) of block t is a function of row 5000 t + r of the array: the row formula
  `entry` below, which both programs compute.

  * The body at an entry (`body_apply`): the index is pushed through the pointwise operations; the two row reductions are
    read as a fold of max and a sum over the 40 columns; the statistic kept as a [5000, 1] column and spread over the 40
    columns reads the statistic of its row.
  * The stage at an entry (`stage_apply`): the host spelling of the same steps. Its row maximum takes one more maximum
    with −∞, the value the fold starts from, which the fold already dominates; its sum starts from the zero word, whose
    value is 0; its exponential and logarithm are those of the extended reals, as the vector program's are.
  * From blocks to the array: the element (r, q) of block t sits at array index (5000 t + r, q) for the feature and the
    output windows (block index (t, 0)), and the bias window's block is the whole array (block index (0, 0)), whose entry
    (0, q) is the bias entry q. So what point t writes back is block t of the stage applied to the whole array
    (`written_back5`); every point writes back and row R lies in the block of point R / 5000 (`rows_covered5`); hence the
    array ends holding the stage's result (`final5`).
-/
import proofs.«171591_j1683627180254_1_alg».proof.Proof.Gen.KernelIdeal.Frame
import proofs.«171591_j1683627180254_1_alg».proof.Proof.Stages
import proofs.«171591_j1683627180254_1_alg».proof.Proof.LibBiasRow
import proofs.«171591_j1683627180254_1_alg».proof.Proof.LibRowMax
import proofs.«171591_j1683627180254_1_alg».proof.Proof.LibKeepdimsColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Regions.Softmax5

open Cert.KernelIdeal Cert.KernelIdeal.Gen Idealize.ShloMosaic Idealize.ShloMosaic.TcCoe Idealize.SL.Sem
open Idealize.ShloMosaic.ValueIdx

/-! ## The row formula -/

/-- The largest of a row's values, folded from the value of the word 0xFF800000 (−∞). -/
def top {n : ℕ} (v : Fin n → EReal) : EReal :=
  (Finset.univ : Finset (Fin n)).fold max (Ideal.ofBits .f32 0xFF800000#32) v

/-- The logarithm of a row's softmax at column q: with s = v − top v, the entry s q − log Σ exp s. -/
def entry {n : ℕ} (v : Fin n → EReal) (q : Fin n) : EReal :=
  (v q - top v) - Ideal.log (∑ c : Fin n, Ideal.exp (v c - top v))

/-! ## The vector program's row -/

/-- The block with the bias row added, at (r, q): the block's entry plus the row's entry in column q. -/
theorem biased_block_apply (x0 : FVec Ideal S5000x40 .f32) (x1 : FVec Ideal S1x40 .f32) (r : Fin 5000) (q : Fin 40) :
    addf (F := Ideal) (shapeCast S5000x40 x0 shapeCasts_S5000x40_S5000x40)
        (broadcastTo S5000x40 (shapeCast S1x40 x1 shapeCasts_S1x40_S1x40) broadcasts_S1x40_S5000x40) (ix2 r q)
      = x0 (ix2 r q) + x1 (ix2 (0 : Fin 1) q) := by
  rw [addf_apply, shapeCast_self, shapeCast_self]
  exact congrArg (x0 (ix2 r q) + ·) (Cert.BiasRow.stretch_row_apply broadcasts_S1x40_S5000x40 x1 r q)

/-- A row statistic kept as a column and spread back over the 40 columns reads, at (r, q), the statistic of row r. -/
theorem spread_block_apply (u : FVec Ideal S5000 .f32) (r : Fin 5000) (q : Fin 40) :
    broadcastTo S5000x40 (shapeCast S5000x1 u shapeCasts_S5000_S5000x1) broadcasts_S5000x1_S5000x40 (ix2 r q) = u (ix1 r) :=
  (Cert.LibKeepdimsColumn.broadcastTo_a1_ab_apply _ broadcasts_S5000x1_S5000x40 r q).trans
    (Cert.LibKeepdimsColumn.shapeCast_a_a1_apply u shapeCasts_S5000_S5000x1 r 0)

/-- The row maximum of the block, at row r: the largest of the row's 40 entries. -/
theorem block_top_apply (v : FVec Ideal S5000x40 .f32) (r : Fin 5000) :
    multiReduction .maximumf [1] S5000 v 0xFF800000#32 reduces_S5000x40_S5000 (.inl rfl) rfl (ix1 r)
      = top fun c : Fin 40 => v (ix2 r c) :=
  Cert.LibRowMax.rowMax_apply v 0xFF800000#32 reduces_S5000x40_S5000 (.inl rfl) rfl r

/-- The block less its row maxima, at (r, q). -/
theorem shifted_block_apply (v : FVec Ideal S5000x40 .f32) (r : Fin 5000) (q : Fin 40) :
    subf (F := Ideal) v (broadcastTo S5000x40 (shapeCast S5000x1
        (multiReduction .maximumf [1] S5000 v 0xFF800000#32 reduces_S5000x40_S5000 (.inl rfl) rfl)
        shapeCasts_S5000_S5000x1) broadcasts_S5000x1_S5000x40) (ix2 r q)
      = v (ix2 r q) - top fun c : Fin 40 => v (ix2 r c) := by
  rw [subf_apply, spread_block_apply, block_top_apply]

/-- The sum over a row of the block, from the zero word, at row r. -/
theorem block_sum_apply (e : FVec Ideal S5000x40 .f32) (r : Fin 5000) :
    multiReduction .add [1] S5000 e 0x00000000#32 reduces_S5000x40_S5000 (.inl rfl) rfl (ix1 r)
      = ∑ c : Fin 40, e (ix2 r c) :=
  Cert.LibKeepdimsColumn.rowSum_apply e reduces_S5000x40_S5000 (.inl rfl) rfl r

/-- The vector program's logarithm of the row-wise softmax of a block v, at (r, q): the row formula of row r of v. -/
theorem block_logSoftmax_apply (v : FVec Ideal S5000x40 .f32) (r : Fin 5000) (q : Fin 40) :
    subf (F := Ideal)
        (subf (F := Ideal) v (broadcastTo S5000x40 (shapeCast S5000x1
          (multiReduction .maximumf [1] S5000 v 0xFF800000#32 reduces_S5000x40_S5000 (.inl rfl) rfl)
          shapeCasts_S5000_S5000x1) broadcasts_S5000x1_S5000x40))
        (broadcastTo S5000x40 (log (F := Ideal) (shapeCast S5000x1
          (multiReduction .add [1] S5000
            (exp (F := Ideal) (subf (F := Ideal) v (broadcastTo S5000x40 (shapeCast S5000x1
              (multiReduction .maximumf [1] S5000 v 0xFF800000#32 reduces_S5000x40_S5000 (.inl rfl) rfl)
              shapeCasts_S5000_S5000x1) broadcasts_S5000x1_S5000x40)))
            0x00000000#32 reduces_S5000x40_S5000 (.inl rfl) rfl)
          shapeCasts_S5000_S5000x1)) broadcasts_S5000x1_S5000x40) (ix2 r q)
      = entry (fun c : Fin 40 => v (ix2 r c)) q := by
  rw [subf_apply, shifted_block_apply]
  refine congrArg (v (ix2 r q) - (top fun c : Fin 40 => v (ix2 r c)) - ·) ?_
  refine (Cert.LibKeepdimsColumn.broadcastTo_a1_ab_apply _ broadcasts_S5000x1_S5000x40 r q).trans ?_
  show Ideal.log (shapeCast S5000x1 _ shapeCasts_S5000_S5000x1 (ix2 r (0 : Fin 1))) = _
  rw [Cert.LibKeepdimsColumn.shapeCast_a_a1_apply _ shapeCasts_S5000_S5000x1 r 0, block_sum_apply]
  refine congrArg Ideal.log (Finset.sum_congr rfl fun c _ => ?_)
  show Ideal.exp _ = _
  rw [shifted_block_apply]

/-- THE BODY AT AN ENTRY: what the region's body computes from a block x0 of 5000 rows and the bias row x1, at (r, q),
    is the row formula of row r of x0 with the bias row added. -/
theorem body_apply (x0 : Vec Ideal S5000x40 .f32) (x1 : Vec Ideal S1x40 .f32) (r : Fin 5000) (q : Fin 40) :
    k5_pay1 (F := Ideal) x0 x1 (ix2 r q) = entry (fun c : Fin 40 => x0 (ix2 r c) + x1 (ix2 (0 : Fin 1) c)) q := by
  unfold k5_pay1
  refine (block_logSoftmax_apply _ r q).trans ?_
  exact congrArg (fun v => entry v q) (funext fun c => biased_block_apply x0 x1 r c)

/-! ## The host program's row -/

/-- A scalar laid out over a vector reads, at every index, the scalar. -/
theorem layout_scalar_apply {a : ℕ} {α : Type}
    (h : (⟨0, ![]⟩ : Shape).BroadcastsInDim ⟨1, ![a]⟩ (![] : Fin 0 → Fin 1))
    (x : (⟨0, ![]⟩ : Shape).Idx → α) (i : Fin a) : broadcastInDim ⟨1, ![a]⟩ ![] h x (ix1 i) = x ix0 :=
  broadcastInDim_apply ![] h x (ix1 i) ix0 fun ax => ax.elim0

/-- A vector laid out as an [a, 1] column on axis 0 reads, at (i, 0), its entry i. -/
theorem layout_column_apply {a : ℕ} {α : Type}
    (h : (⟨1, ![a]⟩ : Shape).BroadcastsInDim ⟨2, ![a, 1]⟩ (![0] : Fin 1 → Fin 2))
    (u : (⟨1, ![a]⟩ : Shape).Idx → α) (i : Fin a) :
    broadcastInDim ⟨2, ![a, 1]⟩ ![0] h u (ix2 i (0 : Fin 1)) = u (ix1 i) := by
  refine broadcastInDim_apply ![0] h u (ix2 i (0 : Fin 1)) (ix1 i) fun ax => ?_
  match ax with
  | ⟨0, _⟩ => show i.val = if a = 1 then 0 else i.val; exact Cert.BiasRow.col_val i

/-- An [a, 1] column laid out over b columns on axes (0, 1) reads, at (i, c), the column's entry in row i. -/
theorem layout_columns_apply {a b : ℕ} {α : Type}
    (h : (⟨2, ![a, 1]⟩ : Shape).BroadcastsInDim ⟨2, ![a, b]⟩ (![0, 1] : Fin 2 → Fin 2))
    (x : (⟨2, ![a, 1]⟩ : Shape).Idx → α) (i : Fin a) (c : Fin b) :
    broadcastInDim ⟨2, ![a, b]⟩ ![0, 1] h x (ix2 i c) = x (ix2 i (0 : Fin 1)) := by
  refine broadcastInDim_apply ![0, 1] h x (ix2 i c) (ix2 i (0 : Fin 1)) fun ax => ?_
  match ax with
  | ⟨0, _⟩ => show i.val = if a = 1 then 0 else i.val; exact Cert.BiasRow.col_val i
  | ⟨1, _⟩ => exact (if_pos rfl).symm

/-- The host's reduction by maximum over the last axis of an [a, b] array from the scalar word w, at row i: the fold of
    max from the word's value over the row's entries. -/
theorem host_fold_max_apply {a b : ℕ} (v : FVec Ideal (⟨2, ![a, b]⟩ : Shape) .f32) (w : BitVec 32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (i : Fin a) :
    Host.reduce FloatOps.maximumf v (constant (F := Ideal) ⟨0, ![]⟩ .f32 w) h' hu (ix1 i)
      = (Finset.univ : Finset (Fin b)).fold max (Ideal.ofBits .f32 w) (fun c => v (ix2 i c)) := by
  rw [Host.reduce_eq_fold_single FloatOps.maximumf v _ h' h hu]
  have e : (v ∘ h.lift (ix1 i)) = fun c : Fin b => v (ix2 i c) :=
    funext fun c => congrArg v (Cert.LibRowMax.lift_row h i c)
  rw [e]
  rfl

/-- The host's sum over the last axis of an [a, b] array from the zero word, at row i: the sum of the row's entries. -/
theorem host_sum_apply {a b : ℕ} (e : FVec Ideal (⟨2, ![a, b]⟩ : Shape) .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (i : Fin a) :
    Host.reduceAdd (F := Ideal) e (constant (F := Ideal) ⟨0, ![]⟩ .f32 0x00000000#32) h' hu (ix1 i)
      = ∑ c : Fin b, e (ix2 i c) := by
  show Ideal.hostReduceAdd h' e (Ideal.ofBits .f32 0x00000000#32) (ix1 i) = _
  rw [Ideal.hostReduceAdd_single h' h, Ideal.ofBits_zero_f32, zero_add]
  exact Finset.sum_congr rfl fun c _ => congrArg e (Cert.LibRowMax.lift_row h i c)

/-- The host's exponential, entry by entry, is the exponential of the extended reals. -/
theorem host_exp_apply {s : Shape} (x : FVec Ideal s .f32) (i : s.Idx) : Host.exp (F := Ideal) x i = Ideal.exp (x i) := rfl

/-- The host's logarithm, entry by entry, is the logarithm of the extended reals. -/
theorem host_log_apply {s : Shape} (x : FVec Ideal s .f32) (i : s.Idx) : Host.log (F := Ideal) x i = Ideal.log (x i) := rfl

/-- Each node's largest feature, at node R: the largest of row R. The host takes one more maximum with −∞, which the
    fold, started from that same value, already dominates. -/
theorem stage_top_apply (v : Cert.Gcn.Arr Ideal S50000x40 .f32) (R : Fin 50000) :
    Cert.Gcn.rowMax v (ix1 R) = top fun c : Fin 40 => v (ix2 R c) := by
  unfold Cert.Gcn.rowMax
  rw [maximumf_apply, layout_scalar_apply, constant_apply, host_fold_max_apply v _ _ (by decide) _ R]
  exact max_eq_right ((Finset.le_fold_max _).mpr (Or.inl le_rfl))

/-- Each feature less its node's largest, at (R, q). -/
theorem stage_shifted_apply (v : Cert.Gcn.Arr Ideal S50000x40 .f32) (R : Fin 50000) (q : Fin 40) :
    Cert.Gcn.shifted v (ix2 R q) = v (ix2 R q) - top fun c : Fin 40 => v (ix2 R c) := by
  unfold Cert.Gcn.shifted Cert.Gcn.spread
  rw [subf_apply, layout_columns_apply, layout_column_apply, stage_top_apply]

/-- The host's logarithm of the row-wise softmax of an array v, at (R, q): the row formula of row R of v. -/
theorem stage_logSoftmax_apply (v : Cert.Gcn.Arr Ideal S50000x40 .f32) (R : Fin 50000) (q : Fin 40) :
    Cert.Gcn.logSoftmax v (ix2 R q) = entry (fun c : Fin 40 => v (ix2 R c)) q := by
  unfold Cert.Gcn.logSoftmax
  rw [subf_apply, stage_shifted_apply, layout_columns_apply]
  refine congrArg (v (ix2 R q) - (top fun c : Fin 40 => v (ix2 R c)) - ·) ?_
  rw [host_log_apply, layout_column_apply, host_sum_apply _ _ (by decide) _ R]
  refine congrArg Ideal.log (Finset.sum_congr rfl fun c _ => ?_)
  rw [host_exp_apply, stage_shifted_apply]

/-- The bias row added to every node's features, at (R, q). -/
theorem stage_biased_apply (A : Cert.Gcn.Arr Ideal S50000x40 .f32) (b : Cert.Gcn.Arr Ideal S40 .f32) (R : Fin 50000)
    (q : Fin 40) : Cert.Gcn.biased40 A b (ix2 R q) = A (ix2 R q) + b (ix1 q) := by
  unfold Cert.Gcn.biased40
  rw [addf_apply]
  exact congrArg (A (ix2 R q) + ·) (Cert.BiasRow.layout_layout_apply _ _ b R q)

/-- THE STAGE AT AN ENTRY: the last layer's ending at (R, q) is the row formula of row R of the array with the bias row
    added. -/
theorem stage_apply (A : Cert.Gcn.Arr Ideal S50000x40 .f32) (b : Cert.Gcn.Arr Ideal S40 .f32) (R : Fin 50000) (q : Fin 40) :
    Cert.Gcn.biasLogSoftmax A b (ix2 R q) = entry (fun c : Fin 40 => A (ix2 R c) + b (ix1 c)) q := by
  unfold Cert.Gcn.biasLogSoftmax
  rw [stage_logSoftmax_apply]
  exact congrArg (fun v => entry v q) (funext fun c => stage_biased_apply A b R c)

/-! ## From blocks to the array -/

section Blocks

open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: at point t the feature window and the output window are at block (t, 0), the
    bias window at block (0, 0). -/
theorem block_indices : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The feature window's block at point t, at (r, q): the array's entry in row 5000 t + r, column q. -/
theorem features_at (c : Dev nD) (t : Fin cfg5.N) (r : Fin 5000) (q : Fin 40) (R : Fin 50000)
    (hR : R.val = t.val * 5000 + r.val) :
    iblk5 (F := Ideal) V c 0 t (ix2 r q) = V c main_v76 (ix2 R q) := by
  obtain ⟨e00, e01, -, -, -, -⟩ := block_indices t
  unfold iblk5
  rw [View.read_apply]
  show V c main_v76 (((cfg5.win 0).blk t).view.emb (ix2 r q)) = V c main_v76 (ix2 R q)
  refine congrArg (V c main_v76) (funext fun a => Fin.ext ?_)
  match a with
  | ⟨0, _⟩ => show win5_0.index t (0 : Fin 2) * 5000 + 1 * r.val = R.val; omega
  | ⟨1, _⟩ => show win5_0.index t (1 : Fin 2) * 40 + 1 * q.val = q.val; omega

/-- The bias window's block at every point is the whole one-row array: at (0, q) the bias entry q. -/
theorem bias_at (c : Dev nD) (b : FVec Ideal S40 .f32) (hb : V c main_v77 = shapeCast S1x40 b shapeCasts_S40_S1x40)
    (t : Fin cfg5.N) (q : Fin 40) : iblk5 (F := Ideal) V c 1 t (ix2 (0 : Fin 1) q) = b (ix1 q) := by
  obtain ⟨-, -, e10, e11, -, -⟩ := block_indices t
  unfold iblk5
  rw [View.read_apply]
  show V c main_v77 (((cfg5.win 1).blk t).view.emb (ix2 (0 : Fin 1) q)) = b (ix1 q)
  have e : ((cfg5.win 1).blk t).view.emb (ix2 (0 : Fin 1) q) = ix2 (0 : Fin 1) q := by
    funext a
    apply Fin.ext
    match a with
    | ⟨0, _⟩ => show win5_1.index t (0 : Fin 2) * 1 + 1 * 0 = 0; omega
    | ⟨1, _⟩ => show win5_1.index t (1 : Fin 2) * 40 + 1 * q.val = q.val; omega
  rw [e, hb]
  exact Cert.BiasRow.cast_row_apply shapeCasts_S40_S1x40 b q

/-- WHAT POINT t WRITES BACK is block t of the last layer's ending of the whole array. -/
theorem written_back5 (c : Dev nD) (b : FVec Ideal S40 .f32) (hb : V c main_v77 = shapeCast S1x40 b shapeCasts_S40_S1x40)
    (t : Fin cfg5.N) :
    (dat5 (F := Ideal) V c).flushed 2 t
      = ((cfg5.win 2).blk t).view.read (Elt Ideal) (Cert.Gcn.biasLogSoftmax (V c main_v76) b) := by
  show (cfg5.win 2).cut (grid5.coords t) ((dat5 V c).after 2 t) = _
  rw [after5_2]
  unfold out5_2
  rw [View.canon_unit_zero origin]
  simp only [View.ld_unit_zero (S := S5000x40) origin, View.ld_unit_zero (S := S1x40) origin]
  obtain ⟨e00, e01, e10, e11, e20, e21⟩ := block_indices t
  funext j
  obtain ⟨r, q, rfl⟩ : ∃ (r : Fin 5000) (q : Fin 40), j = ix2 r q := ⟨j 0, j 1, eq_ix2 j⟩
  show k5_pay1 (F := Ideal) (iblk5 V c 0 t) (iblk5 V c 1 t) (ix2 r q)
    = Cert.Gcn.biasLogSoftmax (V c main_v76) b (((cfg5.win 2).blk t).view.emb (ix2 r q))
  refine (body_apply _ _ r q).trans ?_
  have ht : t.val < grid5.N := t.isLt
  rw [N_5] at ht
  have hR : t.val * 5000 + r.val < 50000 := by have := r.isLt; omega
  have e : ((cfg5.win 2).blk t).view.emb (ix2 r q) = ix2 (⟨t.val * 5000 + r.val, hR⟩ : Fin 50000) q := by
    funext a
    apply Fin.ext
    match a with
    | ⟨0, _⟩ => show win5_2.index t (0 : Fin 2) * 5000 + 1 * r.val = t.val * 5000 + r.val; omega
    | ⟨1, _⟩ => show win5_2.index t (1 : Fin 2) * 40 + 1 * q.val = q.val; omega
  rw [e]
  refine Eq.trans ?_ (stage_apply (V c main_v76) b ⟨t.val * 5000 + r.val, hR⟩ q).symm
  refine congrArg (fun v => entry v q) (funext fun k => ?_)
  rw [features_at V c t r k ⟨t.val * 5000 + r.val, hR⟩ rfl, bias_at V c b hb t k]

/-- An index of the array is in point t's block iff each coordinate is in the block's range on its axis. -/
theorem in_block5 (t : Fin cfg5.N) (i : S50000x40.Idx) :
    i ∈ ((cfg5.win 2).blk t).view.set ↔ ∀ a : Fin 2, win5_2.index t a * S5000x40.size a ≤ (i a).val
      ∧ (i a).val < win5_2.index t a * S5000x40.size a + S5000x40.size a := by
  show i ∈ ((View.whole main_v78).slice (win5_2.rect t)).set ↔ _
  rw [View.set_slice_whole, Rect.mem_set_unit]
  exact Iff.rfl

/-- The ten blocks of 5000 rows fill the array: row R lies in the block of point R / 5000, and every point writes back. -/
theorem rows_covered5 (i : S50000x40.Idx) :
    ∃ t : Fin cfg5.N, (cfg5.win 2).flush t = true ∧ i ∈ ((cfg5.win 2).blk t).view.set := by
  have hi0 : (i 0).val < 50000 := (i 0).isLt
  have hi1 : (i 1).val < 40 := (i 1).isLt
  have hN : grid5.N = 10 := N_5
  have hlt : (i 0).val / 5000 < grid5.N := by rw [hN]; omega
  obtain ⟨-, -, -, -, e20, e21⟩ := block_indices ⟨(i 0).val / 5000, hlt⟩
  refine ⟨⟨(i 0).val / 5000, hlt⟩, flush5_2 _, ?_⟩
  rw [in_block5]
  intro a
  match a with
  | ⟨0, _⟩ =>
    show win5_2.index ⟨(i 0).val / 5000, hlt⟩ (0 : Fin 2) * 5000 ≤ (i 0).val
      ∧ (i 0).val < win5_2.index ⟨(i 0).val / 5000, hlt⟩ (0 : Fin 2) * 5000 + 5000
    rw [e20]
    show (i 0).val / 5000 * 5000 ≤ (i 0).val ∧ (i 0).val < (i 0).val / 5000 * 5000 + 5000
    omega
  | ⟨1, _⟩ =>
    show win5_2.index ⟨(i 0).val / 5000, hlt⟩ (1 : Fin 2) * 40 ≤ (i 1).val
      ∧ (i 1).val < win5_2.index ⟨(i 0).val / 5000, hlt⟩ (1 : Fin 2) * 40 + 40
    omega

end Blocks

end Cert.KernelIdeal.Regions.Softmax5

namespace Cert.KernelIdeal.Regions

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem final5 (c : Dev nD) (b : FVec Ideal S40 .f32) (hb : V c main_v77 = shapeCast S1x40 b shapeCasts_S40_S1x40) :
    (dat5 (F := Ideal) V c).arrAt 2 cfg5.N = Cert.Gcn.biasLogSoftmax (V c main_v76) b :=
  (dat5 (F := Ideal) V c).arrAt_eq_of_cover 2 (Cert.Gcn.biasLogSoftmax (V c main_v76) b)
    (fun t _ => Softmax5.written_back5 V c b hb t) Softmax5.rows_covered5

end Cert.KernelIdeal.Regions

end
-- ==== Proof.KernelValue.lean ====
/-
  What the kernel's program computes.

  The program's run passes thirteen boundaries: the launch, three stretches of host operations up to the first Pallas
  region, then six regions with a stretch between a layer's product and its bias. At each boundary the buffers'
  contents are the previous boundary's, rewritten by what the segment writes: a stretch writes its own buffers and a
  region writes its output window's array and nothing else. Walking that fold, the message sources, targets and weights
  computed before the first region and the six arguments a later segment reads are carried unchanged to the segment
  that reads them; each product region leaves the product of its two arrays, each bias region the rectified biased
  sums, the last region the logarithm of the row-wise softmax of the biased sums; and each stretch between them leaves
  the aggregation along the messages. So the result buffer ends holding the three-layer network of the arguments.
-/
import proofs.«171591_j1683627180254_1_alg».proof.Proof.KernelRun
import proofs.«171591_j1683627180254_1_alg».proof.Proof.Stretches
import proofs.«171591_j1683627180254_1_alg».proof.Proof.Region0
import proofs.«171591_j1683627180254_1_alg».proof.Proof.Region1
import proofs.«171591_j1683627180254_1_alg».proof.Proof.Region2
import proofs.«171591_j1683627180254_1_alg».proof.Proof.Region3
import proofs.«171591_j1683627180254_1_alg».proof.Proof.Region4
import proofs.«171591_j1683627180254_1_alg».proof.Proof.Region5
import Idealize.ShloMosaic.PureOps.Ideal

set_option maxRecDepth 16384

noncomputable section

namespace Cert.KernelIdeal.Chain

open Cert.KernelIdeal Cert.KernelIdeal.Gen Cert.KernelIdeal.Stretches Cert.KernelIdeal.Regions
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The first layer's output, of the arguments as launched. -/
abbrev hidden1 : Cert.Gcn.Arr Ideal Cert.ReferenceIdeal.S50000x128 .f32 := (Cert.Gcn.biasRelu (Cert.Gcn.aggregate128 (m ((c.tc : Thread nD τ).loc main_arg1)) (Cert.Gcn.product128 (m ((c.tc : Thread nD τ).loc main_arg0)) (m ((c.tc : Thread nD τ).loc main_arg2)))) (m ((c.tc : Thread nD τ).loc main_arg3)))

/-- The second layer's output. -/
abbrev hidden2 : Cert.Gcn.Arr Ideal Cert.ReferenceIdeal.S50000x128 .f32 := (Cert.Gcn.biasRelu (Cert.Gcn.aggregate128 (m ((c.tc : Thread nD τ).loc main_arg1)) (Cert.Gcn.product128 (hidden1 m c) (m ((c.tc : Thread nD τ).loc main_arg4)))) (m ((c.tc : Thread nD τ).loc main_arg5)))

/-! ## At the first region's entry -/

theorem at3_sources : W3 m ρ c (Proc.devRef .tc main_v3) = Cert.Gcn.sources (m ((c.tc : Thread nD τ).loc main_arg1)) := first_sources (W0 m ρ c)
theorem at3_targets : W3 m ρ c (Proc.devRef .tc main_v6) = Cert.Gcn.targets (m ((c.tc : Thread nD τ).loc main_arg1)) := first_targets (W0 m ρ c)
theorem at3_weights : W3 m ρ c (Proc.devRef .tc main_v30) = Cert.Gcn.edgeWeight (m ((c.tc : Thread nD τ).loc main_arg1)) := first_weights (W0 m ρ c)
theorem at3_arg0 : W3 m ρ c (Proc.devRef .tc main_arg0) = (m ((c.tc : Thread nD τ).loc main_arg0)) := first_keep (W0 m ρ c) main_arg0 (by decide)
theorem at3_arg2 : W3 m ρ c (Proc.devRef .tc main_arg2) = (m ((c.tc : Thread nD τ).loc main_arg2)) := first_keep (W0 m ρ c) main_arg2 (by decide)
theorem at3_arg3 : W3 m ρ c (Proc.devRef .tc main_arg3) = (m ((c.tc : Thread nD τ).loc main_arg3)) := first_keep (W0 m ρ c) main_arg3 (by decide)
theorem at3_arg4 : W3 m ρ c (Proc.devRef .tc main_arg4) = (m ((c.tc : Thread nD τ).loc main_arg4)) := first_keep (W0 m ρ c) main_arg4 (by decide)
theorem at3_arg5 : W3 m ρ c (Proc.devRef .tc main_arg5) = (m ((c.tc : Thread nD τ).loc main_arg5)) := first_keep (W0 m ρ c) main_arg5 (by decide)
theorem at3_arg6 : W3 m ρ c (Proc.devRef .tc main_arg6) = (m ((c.tc : Thread nD τ).loc main_arg6)) := first_keep (W0 m ρ c) main_arg6 (by decide)
theorem at3_arg7 : W3 m ρ c (Proc.devRef .tc main_arg7) = (m ((c.tc : Thread nD τ).loc main_arg7)) := first_keep (W0 m ρ c) main_arg7 (by decide)

/-! ## After the first product region -/

theorem at4_sources : W4 m ρ c (Proc.devRef .tc main_v3) = Cert.Gcn.sources (m ((c.tc : Thread nD τ).loc main_arg1)) := (W4_of_ne m ρ c main_v3 (by decide)).trans (at3_sources m ρ c)
theorem at4_targets : W4 m ρ c (Proc.devRef .tc main_v6) = Cert.Gcn.targets (m ((c.tc : Thread nD τ).loc main_arg1)) := (W4_of_ne m ρ c main_v6 (by decide)).trans (at3_targets m ρ c)
theorem at4_weights : W4 m ρ c (Proc.devRef .tc main_v30) = Cert.Gcn.edgeWeight (m ((c.tc : Thread nD τ).loc main_arg1)) := (W4_of_ne m ρ c main_v30 (by decide)).trans (at3_weights m ρ c)
theorem at4_arg3 : W4 m ρ c (Proc.devRef .tc main_arg3) = (m ((c.tc : Thread nD τ).loc main_arg3)) := (W4_of_ne m ρ c main_arg3 (by decide)).trans (at3_arg3 m ρ c)

theorem at4_product : W4 m ρ c (Proc.devRef .tc main_v31) = Cert.Gcn.product128 (m ((c.tc : Thread nD τ).loc main_arg0)) (m ((c.tc : Thread nD τ).loc main_arg2)) := by
  refine (W4_arr m ρ c 2).trans ((final0 (V3 m ρ) c).trans ?_)
  show Cert.Gcn.product128 (W3 m ρ c (Proc.devRef .tc main_arg0)) (W3 m ρ c (Proc.devRef .tc main_arg2)) = _
  rw [at3_arg0, at3_arg2]

/-! ## The first layer's aggregation and bias region -/

theorem at5_sums : W5 m ρ c (Proc.devRef .tc main_v44) = Cert.Gcn.aggregate128 (m ((c.tc : Thread nD τ).loc main_arg1)) (Cert.Gcn.product128 (m ((c.tc : Thread nD τ).loc main_arg0)) (m ((c.tc : Thread nD τ).loc main_arg2))) := by
  refine (second_messages (W4 m ρ c)).trans ?_
  rw [at4_sources, at4_targets, at4_weights, at4_product]
  rfl

theorem at5_bias : W5 m ρ c (Proc.devRef .tc main_v45) = shapeCast S1x128 (m ((c.tc : Thread nD τ).loc main_arg3)) shapeCasts_S128_S1x128 := by
  refine (second_bias (W4 m ρ c)).trans ?_
  rw [at4_arg3]

theorem at6_hidden : W6 m ρ c (Proc.devRef .tc main_v46) = hidden1 m c := by
  refine (W6_arr m ρ c 2).trans ((final1 (V5 m ρ) c (m ((c.tc : Thread nD τ).loc main_arg3)) (at5_bias m ρ c)).trans ?_)
  show Cert.Gcn.biasRelu (W5 m ρ c (Proc.devRef .tc main_v44)) (m ((c.tc : Thread nD τ).loc main_arg3)) = _
  rw [at5_sums]

theorem at6_arg4 : W6 m ρ c (Proc.devRef .tc main_arg4) = (m ((c.tc : Thread nD τ).loc main_arg4)) := (W6_of_ne m ρ c main_arg4 (by decide)).trans ((second_keep (W4 m ρ c) main_arg4 (by decide)).trans ((W4_of_ne m ρ c main_arg4 (by decide)).trans (at3_arg4 m ρ c)))

/-! ## The second layer -/

theorem at7_product : W7 m ρ c (Proc.devRef .tc main_v47) = Cert.Gcn.product128 (hidden1 m c) (m ((c.tc : Thread nD τ).loc main_arg4)) := by
  refine (W7_arr m ρ c 2).trans ((final2 (V6 m ρ) c).trans ?_)
  show Cert.Gcn.product128 (W6 m ρ c (Proc.devRef .tc main_v46)) (W6 m ρ c (Proc.devRef .tc main_arg4)) = _
  rw [at6_hidden, at6_arg4]

theorem at7_sources : W7 m ρ c (Proc.devRef .tc main_v3) = Cert.Gcn.sources (m ((c.tc : Thread nD τ).loc main_arg1)) := (W7_of_ne m ρ c main_v3 (by decide)).trans ((W6_of_ne m ρ c main_v3 (by decide)).trans ((second_keep (W4 m ρ c) main_v3 (by decide)).trans (at4_sources m ρ c)))
theorem at7_targets : W7 m ρ c (Proc.devRef .tc main_v6) = Cert.Gcn.targets (m ((c.tc : Thread nD τ).loc main_arg1)) := (W7_of_ne m ρ c main_v6 (by decide)).trans ((W6_of_ne m ρ c main_v6 (by decide)).trans ((second_keep (W4 m ρ c) main_v6 (by decide)).trans (at4_targets m ρ c)))
theorem at7_weights : W7 m ρ c (Proc.devRef .tc main_v30) = Cert.Gcn.edgeWeight (m ((c.tc : Thread nD τ).loc main_arg1)) := (W7_of_ne m ρ c main_v30 (by decide)).trans ((W6_of_ne m ρ c main_v30 (by decide)).trans ((second_keep (W4 m ρ c) main_v30 (by decide)).trans (at4_weights m ρ c)))
theorem at7_arg5 : W7 m ρ c (Proc.devRef .tc main_arg5) = (m ((c.tc : Thread nD τ).loc main_arg5)) := (W7_of_ne m ρ c main_arg5 (by decide)).trans ((W6_of_ne m ρ c main_arg5 (by decide)).trans ((second_keep (W4 m ρ c) main_arg5 (by decide)).trans ((W4_of_ne m ρ c main_arg5 (by decide)).trans (at3_arg5 m ρ c))))

theorem at8_sums : W8 m ρ c (Proc.devRef .tc main_v60) = Cert.Gcn.aggregate128 (m ((c.tc : Thread nD τ).loc main_arg1)) (Cert.Gcn.product128 (hidden1 m c) (m ((c.tc : Thread nD τ).loc main_arg4))) := by
  refine (third_messages (W7 m ρ c)).trans ?_
  rw [at7_sources, at7_targets, at7_weights, at7_product]
  rfl

theorem at8_bias : W8 m ρ c (Proc.devRef .tc main_v61) = shapeCast S1x128 (m ((c.tc : Thread nD τ).loc main_arg5)) shapeCasts_S128_S1x128 := by
  refine (third_bias (W7 m ρ c)).trans ?_
  rw [at7_arg5]

theorem at9_hidden : W9 m ρ c (Proc.devRef .tc main_v62) = hidden2 m c := by
  refine (W9_arr m ρ c 2).trans ((final3 (V8 m ρ) c (m ((c.tc : Thread nD τ).loc main_arg5)) (at8_bias m ρ c)).trans ?_)
  show Cert.Gcn.biasRelu (W8 m ρ c (Proc.devRef .tc main_v60)) (m ((c.tc : Thread nD τ).loc main_arg5)) = _
  rw [at8_sums]

theorem at9_arg6 : W9 m ρ c (Proc.devRef .tc main_arg6) = (m ((c.tc : Thread nD τ).loc main_arg6)) := (W9_of_ne m ρ c main_arg6 (by decide)).trans ((third_keep (W7 m ρ c) main_arg6 (by decide)).trans ((W7_of_ne m ρ c main_arg6 (by decide)).trans ((W6_of_ne m ρ c main_arg6 (by decide)).trans ((second_keep (W4 m ρ c) main_arg6 (by decide)).trans ((W4_of_ne m ρ c main_arg6 (by decide)).trans (at3_arg6 m ρ c))))))

/-! ## The third layer -/

theorem at10_product : W10 m ρ c (Proc.devRef .tc main_v63) = Cert.Gcn.product40 (hidden2 m c) (m ((c.tc : Thread nD τ).loc main_arg6)) := by
  refine (W10_arr m ρ c 2).trans ((final4 (V9 m ρ) c).trans ?_)
  show Cert.Gcn.product40 (W9 m ρ c (Proc.devRef .tc main_v62)) (W9 m ρ c (Proc.devRef .tc main_arg6)) = _
  rw [at9_hidden, at9_arg6]

theorem at10_sources : W10 m ρ c (Proc.devRef .tc main_v3) = Cert.Gcn.sources (m ((c.tc : Thread nD τ).loc main_arg1)) := (W10_of_ne m ρ c main_v3 (by decide)).trans ((W9_of_ne m ρ c main_v3 (by decide)).trans ((third_keep (W7 m ρ c) main_v3 (by decide)).trans (at7_sources m ρ c)))
theorem at10_targets : W10 m ρ c (Proc.devRef .tc main_v6) = Cert.Gcn.targets (m ((c.tc : Thread nD τ).loc main_arg1)) := (W10_of_ne m ρ c main_v6 (by decide)).trans ((W9_of_ne m ρ c main_v6 (by decide)).trans ((third_keep (W7 m ρ c) main_v6 (by decide)).trans (at7_targets m ρ c)))
theorem at10_weights : W10 m ρ c (Proc.devRef .tc main_v30) = Cert.Gcn.edgeWeight (m ((c.tc : Thread nD τ).loc main_arg1)) := (W10_of_ne m ρ c main_v30 (by decide)).trans ((W9_of_ne m ρ c main_v30 (by decide)).trans ((third_keep (W7 m ρ c) main_v30 (by decide)).trans (at7_weights m ρ c)))
theorem at10_arg7 : W10 m ρ c (Proc.devRef .tc main_arg7) = (m ((c.tc : Thread nD τ).loc main_arg7)) := (W10_of_ne m ρ c main_arg7 (by decide)).trans ((W9_of_ne m ρ c main_arg7 (by decide)).trans ((third_keep (W7 m ρ c) main_arg7 (by decide)).trans ((W7_of_ne m ρ c main_arg7 (by decide)).trans ((W6_of_ne m ρ c main_arg7 (by decide)).trans ((second_keep (W4 m ρ c) main_arg7 (by decide)).trans ((W4_of_ne m ρ c main_arg7 (by decide)).trans (at3_arg7 m ρ c)))))))

theorem at11_sums : W11 m ρ c (Proc.devRef .tc main_v76) = Cert.Gcn.aggregate40 (m ((c.tc : Thread nD τ).loc main_arg1)) (Cert.Gcn.product40 (hidden2 m c) (m ((c.tc : Thread nD τ).loc main_arg6))) := by
  refine (fourth_messages (W10 m ρ c)).trans ?_
  rw [at10_sources, at10_targets, at10_weights, at10_product]
  rfl

theorem at11_bias : W11 m ρ c (Proc.devRef .tc main_v77) = shapeCast S1x40 (m ((c.tc : Thread nD τ).loc main_arg7)) shapeCasts_S40_S1x40 := by
  refine (fourth_bias (W10 m ρ c)).trans ?_
  rw [at10_arg7]

/-- The result buffer at the last boundary is the network of the arguments as launched. -/
theorem value : W12 m ρ c (Proc.devRef .tc main_v78)
    = Cert.Gcn.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W12_arr m ρ c 2).trans ((final5 (V11 m ρ) c (m ((c.tc : Thread nD τ).loc main_arg7)) (at11_bias m ρ c)).trans ?_)
  show Cert.Gcn.biasLogSoftmax (W11 m ρ c (Proc.devRef .tc main_v76)) (m ((c.tc : Thread nD τ).loc main_arg7)) = _
  rw [at11_sums]
  rfl

/-- Every weakly fair execution of the kernel's program terminates with its result at the network of the arguments
    and the arguments unchanged. -/
theorem run : θ_run defs (onTc (τ := τ) (main (F := Ideal))) ⟨m, fun _ => 0, ρ⟩ fun r => ∀ c : Dev nD,
      r.2.mem ((c.tc : Thread nD τ).loc main_v78) = Cert.Gcn.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1.trans (value m ρ c), (h c).2⟩) (run_named m ρ)

end Cert.KernelIdeal.Chain

end
-- ==== Proof.RefRun.lean ====
/-
  What the reference program computes.

  The reference is a straight line of 123 host operations. Read back through that line, its result buffer holds the
  three-layer network `Cert.Gcn.network` of the eight argument arrays: the operations from the edge list to the message
  weights are `sources`, `targets` and `edgeWeight`; each layer is a product, the aggregation along the messages and
  a bias row, followed by the rectifier in the first two layers and by the logarithm of the row-wise softmax in the
  last. The small functions the program calls (where, relu, log_softmax) are plain operations at their buffers, and the
  two joins of an edge-list row with the self loops are functions of their two pieces, so one pass composes the 123
  results into a term that is `network` by unfolding its stages. No argument array is written.
-/
import proofs.«171591_j1683627180254_1_alg».proof.Proof.RefOps
import proofs.«171591_j1683627180254_1_alg».proof.Proof.Stages
import proofs.«171591_j1683627180254_1_alg».proof.Proof.LibPlainOps
import proofs.«171591_j1683627180254_1_alg».proof.Proof.LibJoin2

noncomputable section

namespace Cert.ReferenceIdeal.RefValue

open Cert.ReferenceIdeal Cert.ReferenceIdeal.Gen Cert.ReferenceIdeal.Ops Idealize.ShloMosaic Idealize.ShloMosaic.TcCoe Idealize.SL.Sem Idealize.ShloMosaic.StableHlo

variable {F : FTy → Type} [FloatOps F]

set_option maxRecDepth 16384 in
set_option maxHeartbeats 8000000 in
/-- From any buffer contents, after the 123 operations the result buffer holds the network of the argument buffers. -/
theorem result_eq (V : Valuation τ sig (Elt F)) :
    after (ops (F := F)) V (Proc.devRef .tc main_v84)
      = Cert.Gcn.network (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) := by
  simp only [ops, Cert.PlainOps.tunary_eq, Cert.PlainOps.tbinary_eq, Cert.PlainOps.tternary_eq, Cert.PlainOps.tnullary_eq,
    Cert.Join2.join2_eq]
  after_results_simp
  rfl

set_option maxRecDepth 16384 in
set_option maxHeartbeats 8000000 in
/-- Every weakly fair execution of the reference terminates with its result at the network of the arguments and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v84) = Cert.Gcn.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v84).trans (result_eq _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.RefValue

end
-- ==== Proof.lean ====
/-
  A three-layer graph convolution network on 50000 nodes and 800000 edges (plus one self loop per node): the kernel's
  program against its jnp reference, equal over the extended reals.

  Both programs compute, from the edge list, the message sources and targets and the weight
  d(source)^(-1/2) · d(target)^(-1/2) of every message, with the same host operations. A layer multiplies the node
  features by its weight matrix, sums at every target the source rows scaled by the message weights, and adds its bias
  row; the first two layers end with max(·, 0), the last with the logarithm of the row-wise softmax. The reference
  spells every stage with host operations. The kernel's program runs the three products and the three endings as
  Pallas regions over ten blocks of 5000 rows: a product as the matrix unit's product into zeros of the operands
  narrowed to bf16 — the same sum over the 128 inner indices, narrowing being the identity on the extended reals —, an
  ending on the block's rows with the bias as a one-row array repeated over them; the maximum and the sum along a row
  are the reference's reductions of that row, and the one more maximum with −∞ the reference takes changes nothing.
  The aggregation between a product and an ending is the same host operations in both programs, so it is carried
  as one function of the product and never opened.

  `Cert.Gcn.network` (Proof/Stages.lean) is the common value: the kernel's result buffer holds it by
  Proof/KernelValue.lean (the run's boundaries walked, each region's final array from Proof/Region0 … Region5), the
  reference's by Proof/RefRun.lean. The kernel's two frames are the generated ones; the reference's is its run with the
  result dropped; the ideal pass rewrote nothing, so there is nothing to preserve.
-/
import proofs.«171591_j1683627180254_1_alg».proof.Defs
import proofs.«171591_j1683627180254_1_alg».proof.Proof.Gen.Kernel
import proofs.«171591_j1683627180254_1_alg».proof.Proof.Gen.Kernel.Frame
import proofs.«171591_j1683627180254_1_alg».proof.Proof.Gen.KernelIdeal
import proofs.«171591_j1683627180254_1_alg».proof.Proof.Gen.KernelIdeal.Frame
import proofs.«171591_j1683627180254_1_alg».proof.Proof.Gen.ReferenceIdeal
import proofs.«171591_j1683627180254_1_alg».proof.Proof.Gen.Pre_finite_inputs
import proofs.«171591_j1683627180254_1_alg».proof.Proof.KernelValue
import proofs.«171591_j1683627180254_1_alg».proof.Proof.RefRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- Both programs end with the network of the arguments, which agree. -/
theorem algebraic : Cert.algebraic_KernelIdeal_ReferenceIdeal := by
  intro m ρ m' ρ' _ hagree
  refine ⟨fun c => Cert.Gcn.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Chain.run m ρ, ?_⟩
  refine (θ_run Cert.ReferenceIdeal.defs _ _).mono (fun _ h c => ⟨(h c).1.trans ?_, (h c).2⟩)
    (Cert.ReferenceIdeal.RefValue.run (F := Ideal) m' ρ')
  obtain ⟨e0, e1, e2, e3, e4, e5, e6, e7⟩ := hagree c
  rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
